-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S800000 : Shape := ⟨1, ![800000]⟩
abbrev S2x2 : Shape := ⟨2, ![2, 2]⟩
abbrev S2 : Shape := ⟨1, ![2]⟩
abbrev S192x128 : Shape := ⟨2, ![192, 128]⟩
abbrev S3x2 : Shape := ⟨2, ![3, 2]⟩
abbrev S64 : Shape := ⟨1, ![64]⟩
abbrev S120x64 : Shape := ⟨2, ![120, 64]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x2 : S_.BroadcastsInDim S800000x2 (![] : Fin 0 → Fin S800000x2.rank)
  reducesTo_S800000x2_S_d0_1 : S800000x2.ReducesTo [0, 1] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S192x128 : S_.BroadcastsInDim S192x128 (![] : Fin 0 → Fin S192x128.rank)
  reducesTo_S192x128_S_d0_1 : S192x128.ReducesTo [0, 1] S_
  bcast_S_S3x2 : S_.BroadcastsInDim S3x2 (![] : Fin 0 → Fin S3x2.rank)
  reducesTo_S3x2_S_d0_1 : S3x2.ReducesTo [0, 1] S_
  bcast_S_S64 : S_.BroadcastsInDim S64 (![] : Fin 0 → Fin S64.rank)
  reducesTo_S64_S_d0 : S64.ReducesTo [0] S_
  bcast_S_S120x64 : S_.BroadcastsInDim S120x64 (![] : Fin 0 → Fin S120x64.rank)
  reducesTo_S120x64_S_d0_1 : S120x64.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S3x2 .f32) (main_arg14 : FVec F S3x2 .f32) (main_arg15 : FVec F S40 .f32) (main_v48 : IVec S_ 1) (main_v49 : FVec F S120x64 .f32) (main_v50 : FVec F S120x64 .f32) : IVec S_ 1 :=
  let main_v51 : IVec S120x64 1 := cmpf .olt main_v49 main_v50
  let main_c_19 : IVec S_ 1 := constantI S_ 1 1#1
  let main_v52 : IVec S_ 1 := (fun x v => Host.reduce IntOp.andi x v reducesTo_S120x64_S_d0_1 h_S_) main_v51 main_c_19
  let main_v53 : IVec S_ 1 := andi main_v48 main_v52
  let main_v54 : FVec F S3x2 .f32 := Host.absf main_arg13
  let main_cst_20 : FVec F S_ .f32 := constant S_ .f32 0x7F800000#32
  let main_v55 : FVec F S3x2 .f32 := broadcastInDim S3x2 ![] bcast_S_S3x2 main_cst_20
  let main_v56 : IVec S3x2 1 := cmpf .olt main_v54 main_v55
  let main_c_21 : IVec S_ 1 := constantI S_ 1 1#1
  let main_v57 : IVec S_ 1 := (fun x v => Host.reduce IntOp.andi x v reducesTo_S3x2_S_d0_1 h_S_) main_v56 main_c_21
  let main_v58 : IVec S_ 1 := andi main_v53 main_v57
  let main_v59 : FVec F S3x2 .f32 := Host.absf main_arg14
  let main_cst_22 : FVec F S_ .f32 := constant S_ .f32 0x7F800000#32
  let main_v60 : FVec F S3x2 .f32 := broadcastInDim S3x2 ![] bcast_S_S3x2 main_cst_22
  let main_v61 : IVec S3x2 1 := cmpf .olt main_v59 main_v60
  let main_c_23 : IVec S_ 1 := constantI S_ 1 1#1
  let main_v62 : IVec S_ 1 := (fun x v => Host.reduce IntOp.andi x v reducesTo_S3x2_S_d0_1 h_S_) main_v61 main_c_23
  let main_v63 : IVec S_ 1 := andi main_v58 main_v62
  let main_v64 : FVec F S40 .f32 := Host.absf main_arg15
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_v63 main_v67

def fn_part2 {F : FTy → Type} [FloatOps F] (main_arg9 : FVec F S64 .f32) (main_arg10 : FVec F S2x2 .f32) (main_arg11 : FVec F S2 .f32) (main_arg12 : FVec F S120x64 .f32) (main_arg13 : FVec F S3x2 .f32) (main_arg14 : FVec F S3x2 .f32) (main_arg15 : FVec F S40 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x2 .f32 := Host.absf main_arg10
  let main_cst_14 : FVec F S_ .f32 := constant S_ .f32 0x7F800000#32
  let main_v40 : FVec F S2x2 .f32 := broadcastInDim S2x2 ![] bcast_S_S2x2 main_cst_14
  let main_v41 : IVec S2x2 1 := cmpf .olt main_v39 main_v40
  let main_c_15 : IVec S_ 1 := constantI S_ 1 1#1
  let main_v42 : IVec S_ 1 := (fun x v => Host.reduce IntOp.andi x v reducesTo_S2x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S120x64 .f32 := Host.absf main_arg12
  let main_cst_18 : FVec F S_ .f32 := constant S_ .f32 0x7F800000#32
  let main_v50 : FVec F S120x64 .f32 := broadcastInDim S120x64 ![] bcast_S_S120x64 main_cst_18
  fn_part3 (F := F) main_arg13 main_arg14 main_arg15 main_v48 main_v49 main_v50

def fn_part1 {F : FTy → Type} [FloatOps F] (main_arg6 : FVec F S192x128 .f32) (main_arg7 : FVec F S3x2 .f32) (main_arg8 : FVec F S3x2 .f32) (main_arg9 : FVec F S64 .f32) (main_arg10 : FVec F S2x2 .f32) (main_arg11 : FVec F S2 .f32) (main_arg12 : FVec F S120x64 .f32) (main_arg13 : FVec F S3x2 .f32) (main_arg14 : FVec F S3x2 .f32) (main_arg15 : FVec F S40 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S192x128 .f32 := Host.absf main_arg6
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S3x2 .f32 := Host.absf main_arg7
  let main_cst_8 : FVec F S_ .f32 := constant S_ .f32 0x7F800000#32
  let main_v25 : FVec F S3x2 .f32 := broadcastInDim S3x2 ![] bcast_S_S3x2 main_cst_8
  let main_v26 : IVec S3x2 1 := cmpf .olt main_v24 main_v25
  let main_c_9 : IVec S_ 1 := constantI S_ 1 1#1
  let main_v27 : IVec S_ 1 := (fun x v => Host.reduce IntOp.andi x v reducesTo_S3x2_S_d0_1 h_S_) main_v26 main_c_9
  let main_v28 : IVec S_ 1 := andi main_v23 main_v27
  let main_v29 : FVec F S3x2 .f32 := Host.absf main_arg8
  let main_cst_10 : FVec F S_ .f32 := constant S_ .f32 0x7F800000#32
  let main_v30 : FVec F S3x2 .f32 := broadcastInDim S3x2 ![] bcast_S_S3x2 main_cst_10
  let main_v31 : IVec S3x2 1 := cmpf .olt main_v29 main_v30
  let main_c_11 : IVec S_ 1 := constantI S_ 1 1#1
  let main_v32 : IVec S_ 1 := (fun x v => Host.reduce IntOp.andi x v reducesTo_S3x2_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x2 .f32) (main_arg2 : IVec S800000 32) (main_arg3 : IVec S800000 32) (main_arg4 : FVec F S2x2 .f32) (main_arg5 : FVec F S2 .f32) (main_arg6 : FVec F S192x128 .f32) (main_arg7 : FVec F S3x2 .f32) (main_arg8 : FVec F S3x2 .f32) (main_arg9 : FVec F S64 .f32) (main_arg10 : FVec F S2x2 .f32) (main_arg11 : FVec F S2 .f32) (main_arg12 : FVec F S120x64 .f32) (main_arg13 : FVec F S3x2 .f32) (main_arg14 : FVec F S3x2 .f32) (main_arg15 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x2 .f32 := Host.absf main_arg1
  let main_cst_0 : FVec F S_ .f32 := constant S_ .f32 0x7F800000#32
  let main_v5 : FVec F S800000x2 .f32 := broadcastInDim S800000x2 ![] bcast_S_S800000x2 main_cst_0
  let main_v6 : IVec S800000x2 1 := cmpf .olt main_v4 main_v5
  let main_c_1 : IVec S_ 1 := constantI S_ 1 1#1
  let main_v7 : IVec S_ 1 := (fun x v => Host.reduce IntOp.andi x v reducesTo_S800000x2_S_d0_1 h_S_) main_v6 main_c_1
  let main_v8 : IVec S_ 1 := andi main_v3 main_v7
  let main_v9 : FVec F S2x2 .f32 := Host.absf main_arg4
  let main_cst_2 : FVec F S_ .f32 := constant S_ .f32 0x7F800000#32
  let main_v10 : FVec F S2x2 .f32 := broadcastInDim S2x2 ![] bcast_S_S2x2 main_cst_2
  let main_v11 : IVec S2x2 1 := cmpf .olt main_v9 main_v10
  let main_c_3 : IVec S_ 1 := constantI S_ 1 1#1
  let main_v12 : IVec S_ 1 := (fun x v => Host.reduce IntOp.andi x v reducesTo_S2x2_S_d0_1 h_S_) main_v11 main_c_3
  let main_v13 : IVec S_ 1 := andi main_v8 main_v12
  let main_v14 : FVec F S2 .f32 := Host.absf main_arg5
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x2 : Shape := ⟨2, ![800000, 2]⟩
abbrev S800000 : Shape := ⟨1, ![800000]⟩
abbrev S2x2 : Shape := ⟨2, ![2, 2]⟩
abbrev S2 : Shape := ⟨1, ![2]⟩
abbrev S192x128 : Shape := ⟨2, ![192, 128]⟩
abbrev S3x2 : Shape := ⟨2, ![3, 2]⟩
abbrev S64 : Shape := ⟨1, ![64]⟩
abbrev S120x64 : Shape := ⟨2, ![120, 64]⟩
abbrev S40 : Shape := ⟨1, ![40]⟩
abbrev S2x800000 : Shape := ⟨2, ![2, 800000]⟩
abbrev S3x800000 : Shape := ⟨2, ![3, 800000]⟩
abbrev S2x160000 : Shape := ⟨2, ![2, 160000]⟩
abbrev S3x160000 : Shape := ⟨2, ![3, 160000]⟩
abbrev S1x160000 : Shape := ⟨2, ![1, 160000]⟩
abbrev S1x1 : Shape := ⟨2, ![1, 1]⟩
abbrev S1 : Shape := ⟨1, ![1]⟩
abbrev S800000x3 : Shape := ⟨2, ![800000, 3]⟩
abbrev S50000x192 : Shape := ⟨2, ![50000, 192]⟩
abbrev S5000x128 : Shape := ⟨2, ![5000, 128]⟩
abbrev S5000x192 : Shape := ⟨2, ![5000, 192]⟩
abbrev S128x192 : Shape := ⟨2, ![128, 192]⟩
abbrev S50000x3x64 : Shape := ⟨3, ![50000, 3, 64]⟩
abbrev S_ : Shape := ⟨0, ![]⟩
abbrev S800000x1 : Shape := ⟨2, ![800000, 1]⟩
abbrev S800000x3x64 : Shape := ⟨3, ![800000, 3, 64]⟩
abbrev S800000x3x1 : Shape := ⟨3, ![800000, 3, 1]⟩
abbrev S800000x64 : Shape := ⟨2, ![800000, 64]⟩
abbrev S50000x64 : Shape := ⟨2, ![50000, 64]⟩
abbrev S1x64 : Shape := ⟨2, ![1, 64]⟩
abbrev S50000x120 : Shape := ⟨2, ![50000, 120]⟩
abbrev S5000x64 : Shape := ⟨2, ![5000, 64]⟩
abbrev S5000x120 : Shape := ⟨2, ![5000, 120]⟩
abbrev S64x120 : Shape := ⟨2, ![64, 120]⟩
abbrev S50000x3x40 : Shape := ⟨3, ![50000, 3, 40]⟩
abbrev S800000x3x40 : Shape := ⟨3, ![800000, 3, 40]⟩
abbrev S800000x40 : Shape := ⟨2, ![800000, 40]⟩
abbrev S50000x40 : Shape := ⟨2, ![50000, 40]⟩
abbrev S1x40 : Shape := ⟨2, ![1, 40]⟩

abbrev nBuf : Space → Nat
  | .hbm => 71
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000x2, .f32⟩
  | .hbm, ⟨2, _⟩ => ⟨S800000, .i32⟩
  | .hbm, ⟨3, _⟩ => ⟨S800000, .i32⟩
  | .hbm, ⟨4, _⟩ => ⟨S2x2, .f32⟩
  | .hbm, ⟨5, _⟩ => ⟨S2, .f32⟩
  | .hbm, ⟨6, _⟩ => ⟨S192x128, .f32⟩
  | .hbm, ⟨7, _⟩ => ⟨S3x2, .f32⟩
  | .hbm, ⟨8, _⟩ => ⟨S3x2, .f32⟩
  | .hbm, ⟨9, _⟩ => ⟨S64, .f32⟩
  | .hbm, ⟨10, _⟩ => ⟨S2x2, .f32⟩
  | .hbm, ⟨11, _⟩ => ⟨S2, .f32⟩
  | .hbm, ⟨12, _⟩ => ⟨S120x64, .f32⟩
  | .hbm, ⟨13, _⟩ => ⟨S3x2, .f32⟩
  | .hbm, ⟨14, _⟩ => ⟨S3x2, .f32⟩
  | .hbm, ⟨15, _⟩ => ⟨S40, .f32⟩
  | .hbm, ⟨16, _⟩ => ⟨S2x800000, .f32⟩
  | .hbm, ⟨17, _⟩ => ⟨S3x800000, .f32⟩
  | .hbm, ⟨18, _⟩ => ⟨S3x800000, .f32⟩
  | .hbm, ⟨19, _⟩ => ⟨S800000x3, .f32⟩
  | .hbm, ⟨20, _⟩ => ⟨S800000x3, .f32⟩
  | .hbm, ⟨21, _⟩ => ⟨S50000x128, .bf16⟩
  | .hbm, ⟨22, _⟩ => ⟨S192x128, .bf16⟩
  | .hbm, ⟨23, _⟩ => ⟨S50000x192, .f32⟩
  | .hbm, ⟨24, _⟩ => ⟨S50000x3x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x3x64, .f32⟩
  | .hbm, ⟨34, _⟩ => ⟨S800000x3x1, .f32⟩
  | .hbm, ⟨35, _⟩ => ⟨S800000x3x64, .f32⟩
  | .hbm, ⟨36, _⟩ => ⟨S800000x3x64, .f32⟩
  | .hbm, ⟨37, _⟩ => ⟨S_, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .bf16⟩
  | .hbm, ⟨47, _⟩ => ⟨S120x64, .bf16⟩
  | .hbm, ⟨48, _⟩ => ⟨S50000x120, .f32⟩
  | .hbm, ⟨49, _⟩ => ⟨S50000x3x40, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x3x40, .f32⟩
  | .hbm, ⟨59, _⟩ => ⟨S800000x3x1, .f32⟩
  | .hbm, ⟨60, _⟩ => ⟨S800000x3x40, .f32⟩
  | .hbm, ⟨61, _⟩ => ⟨S800000x3x40, .f32⟩
  | .hbm, ⟨62, _⟩ => ⟨S_, .f32⟩
  | .hbm, ⟨63, _⟩ => ⟨S800000x40, .f32⟩
  | .hbm, ⟨64, _⟩ => ⟨S_, .f32⟩
  | .hbm, ⟨65, _⟩ => ⟨S50000x40, .f32⟩
  | .hbm, ⟨66, _⟩ => ⟨S800000x1, .i32⟩
  | .hbm, ⟨67, _⟩ => ⟨S50000x40, .f32⟩
  | .hbm, ⟨68, _⟩ => ⟨S1x40, .f32⟩
  | .hbm, ⟨69, _⟩ => ⟨S50000x40, .f32⟩
  | .hbm, ⟨70, _⟩ => ⟨S50000x40, .f32⟩
  | .local _ .vmem, ⟨0, _⟩ => ⟨S2x160000, .f32⟩
  | .local _ .vmem, ⟨1, _⟩ => ⟨S2x160000, .f32⟩
  | .local _ .vmem, ⟨2, _⟩ => ⟨S2x2, .f32⟩
  | .local _ .vmem, ⟨3, _⟩ => ⟨S2, .f32⟩
  | .local _ .vmem, ⟨4, _⟩ => ⟨S3x2, .f32⟩
  | .local _ .vmem, ⟨5, _⟩ => ⟨S3x2, .f32⟩
  | .local _ .vmem, ⟨6, _⟩ => ⟨S2x2, .f32⟩
  | .local _ .vmem, ⟨7, _⟩ => ⟨S2, .f32⟩
  | .local _ .vmem, ⟨8, _⟩ => ⟨S3x2, .f32⟩
  | .local _ .vmem, ⟨9, _⟩ => ⟨S3x2, .f32⟩
  | .local _ .vmem, ⟨10, _⟩ => ⟨S3x160000, .f32⟩
  | .local _ .vmem, ⟨11, _⟩ => ⟨S3x160000, .f32⟩
  | .local _ .vmem, ⟨12, _⟩ => ⟨S3x160000, .f32⟩
  | .local _ .vmem, ⟨13, _⟩ => ⟨S3x160000, .f32⟩
  | .local _ .vmem, ⟨14, _⟩ => ⟨S5000x128, .bf16⟩
  | .local _ .vmem, ⟨15, _⟩ => ⟨S5000x128, .bf16⟩
  | .local _ .vmem, ⟨16, _⟩ => ⟨S192x128, .bf16⟩
  | .local _ .vmem, ⟨17, _⟩ => ⟨S5000x192, .f32⟩
  | .local _ .vmem, ⟨18, _⟩ => ⟨S5000x192, .f32⟩
  | .local _ .vmem, ⟨19, _⟩ => ⟨S5000x64, .bf16⟩
  | .local _ .vmem, ⟨20, _⟩ => ⟨S5000x64, .bf16⟩
  | .local _ .vmem, ⟨21, _⟩ => ⟨S120x64, .bf16⟩
  | .local _ .vmem, ⟨22, _⟩ => ⟨S5000x120, .f32⟩
  | .local _ .vmem, ⟨23, _⟩ => ⟨S5000x120, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x160000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x160000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S120x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x120 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S800000x2_S2x800000_1_0 : S800000x2.Transposes [1, 0] S2x800000
  inb_S2x160000_S1x160000_0_0 : ∀ a, (![0, 0] : Fin 2 → Nat) a + S1x160000.size a ≤ S2x160000.size a
  h_S1x160000 : 0 < S1x160000.numel
  shapeCasts_S1x160000_S1x160000 : S1x160000.ShapeCasts S1x160000
  inb_S2x160000_S1x160000_1_0 : ∀ a, (![1, 0] : Fin 2 → Nat) a + S1x160000.size a ≤ S2x160000.size a
  inb_S2x2_S1x1_0_0 : ∀ a, (![0, 0] : Fin 2 → Nat) a + S1x1.size a ≤ S2x2.size a
  h_S1x1 : 0 < S1x1.numel
  inpos_S1x1_p0_0 : ∀ a, (![0, 0] : Fin 2 → Nat) a < S1x1.size a
  inb_S2x2_S1x1_0_1 : ∀ a, (![0, 1] : Fin 2 → Nat) a + S1x1.size a ≤ S2x2.size a
  inb_S2_S1_0 : ∀ a, (![0] : Fin 1 → Nat) a + S1.size a ≤ S2.size a
  h_S1 : 0 < S1.numel
  inpos_S1_p0 : ∀ a, (![0] : Fin 1 → Nat) a < S1.size a
  inb_S2x2_S1x1_1_0 : ∀ a, (![1, 0] : Fin 2 → Nat) a + S1x1.size a ≤ S2x2.size a
  inb_S2x2_S1x1_1_1 : ∀ a, (![1, 1] : Fin 2 → Nat) a + S1x1.size a ≤ S2x2.size a
  inb_S2_S1_1 : ∀ a, (![1] : Fin 1 → Nat) a + S1.size a ≤ S2.size a
  inb_S3x2_S1x1_0_0 : ∀ a, (![0, 0] : Fin 2 → Nat) a + S1x1.size a ≤ S3x2.size a
  inb_S3x2_S1x1_0_1 : ∀ a, (![0, 1] : Fin 2 → Nat) a + S1x1.size a ≤ S3x2.size a
  inb_S3x160000_S1x160000_0_0 : ∀ a, (![0, 0] : Fin 2 → Nat) a + S1x160000.size a ≤ S3x160000.size a
  inb_S3x2_S1x1_1_0 : ∀ a, (![1, 0] : Fin 2 → Nat) a + S1x1.size a ≤ S3x2.size a
  inb_S3x2_S1x1_1_1 : ∀ a, (![1, 1] : Fin 2 → Nat) a + S1x1.size a ≤ S3x2.size a
  inb_S3x160000_S1x160000_1_0 : ∀ a, (![1, 0] : Fin 2 → Nat) a + S1x160000.size a ≤ S3x160000.size a
  inb_S3x2_S1x1_2_0 : ∀ a, (![2, 0] : Fin 2 → Nat) a + S1x1.size a ≤ S3x2.size a
  inb_S3x2_S1x1_2_1 : ∀ a, (![2, 1] : Fin 2 → Nat) a + S1x1.size a ≤ S3x2.size a
  inb_S3x160000_S1x160000_2_0 : ∀ a, (![2, 0] : Fin 2 → Nat) a + S1x160000.size a ≤ S3x160000.size a
  transposes_S3x800000_S800000x3_1_0 : S3x800000.Transposes [1, 0] S800000x3
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S192x128_S192x128_0_0 : ∀ a, (![0, 0] : Fin 2 → Nat) a + S192x128.size a ≤ S192x128.size a
  h_S192x128 : 0 < S192x128.numel
  shapeCasts_S192x128_S192x128 : S192x128.ShapeCasts S192x128
  transposes_S192x128_p1_0_S128x192 : S192x128.Transposes [1, 0] S128x192
  inb_S5000x192_S5000x192_0_0 : ∀ a, (![0, 0] : Fin 2 → Nat) a + S5000x192.size a ≤ S5000x192.size a
  h_S5000x192 : 0 < S5000x192.numel
  shapeCasts_S50000x192_S50000x3x64 : S50000x192.ShapeCasts S50000x3x64
  bcast_S_S800000 : S_.BroadcastsInDim S800000 (![] : Fin 0 → Fin S800000.rank)
  bcast_S800000_S800000x1_0 : S800000.BroadcastsInDim S800000x1 (![0] : Fin 1 → Fin S800000x1.rank)
  bcast_S800000x3_S800000x3x1_0_1 : S800000x3.BroadcastsInDim S800000x3x1 (![0, 1] : Fin 2 → Fin S800000x3x1.rank)
  bcast_S800000x3x1_S800000x3x64_0_1_2 : S800000x3x1.BroadcastsInDim S800000x3x64 (![0, 1, 2] : Fin 3 → Fin S800000x3x64.rank)
  reducesTo_S800000x3x64_S800000x64_d1 : S800000x3x64.ReducesTo [1] S800000x64
  h_S_ : 0 < S_.numel
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S120x64_S120x64_0_0 : ∀ a, (![0, 0] : Fin 2 → Nat) a + S120x64.size a ≤ S120x64.size a
  h_S120x64 : 0 < S120x64.numel
  shapeCasts_S120x64_S120x64 : S120x64.ShapeCasts S120x64
  transposes_S120x64_p1_0_S64x120 : S120x64.Transposes [1, 0] S64x120
  inb_S5000x120_S5000x120_0_0 : ∀ a, (![0, 0] : Fin 2 → Nat) a + S5000x120.size a ≤ S5000x120.size a
  h_S5000x120 : 0 < S5000x120.numel
  shapeCasts_S50000x120_S50000x3x40 : S50000x120.ShapeCasts S50000x3x40
  bcast_S800000x3x1_S800000x3x40_0_1_2 : S800000x3x1.BroadcastsInDim S800000x3x40 (![0, 1, 2] : Fin 3 → Fin S800000x3x40.rank)
  reducesTo_S800000x3x40_S800000x40_d1 : S800000x3x40.ReducesTo [1] S800000x40
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S5000x128_S128x192_S5000x192_1_0_0_1_n_n_wf : DotDims.WF S5000x128 S128x192 S5000x192 [1] [0] [0] [1] [] []
  gather_S50000x3x64_S800000x1_S800000x3x64_12_0_n_n_0_1_1364_wf : GatherDims.WF S50000x3x64 S800000x1 S800000x3x64 [1, 2] [0] [] [0] [] 1 ![1, 3, 64]
  scatter_S50000x64_S800000x1_S800000x64_1_0_0_1_wf : ScatterDims.WF S50000x64 S800000x1 S800000x64 [1] [0] [0] 1
  dot_S5000x64_S64x120_S5000x120_1_0_0_1_n_n_wf : DotDims.WF S5000x64 S64x120 S5000x120 [1] [0] [0] [1] [] []
  gather_S50000x3x40_S800000x1_S800000x3x40_12_0_n_n_0_1_1340_wf : GatherDims.WF S50000x3x40 S800000x1 S800000x3x40 [1, 2] [0] [] [0] [] 1 ![1, 3, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x160000.size a ≤ S2x800000.size a
  hwx0_0 : ∀ i : grid0.Coords, EltTy.bits .f32 = 32 ∨ (Rect.block (s := S2x800000) S2x160000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2.size a ≤ S3x2.size a
  hwx0_3 : ∀ i : grid0.Coords, EltTy.bits .f32 = 32 ∨ (Rect.block (s := S3x2) S3x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2.size a ≤ S3x2.size a
  hwx0_4 : ∀ i : grid0.Coords, EltTy.bits .f32 = 32 ∨ (Rect.block (s := S3x2) S3x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2.size a ≤ S2x2.size a
  hwx0_5 : ∀ i : grid0.Coords, EltTy.bits .f32 = 32 ∨ (Rect.block (s := S2x2) S2x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x2.size a ≤ S3x2.size a
  hwx0_7 : ∀ i : grid0.Coords, EltTy.bits .f32 = 32 ∨ (Rect.block (s := S3x2) S3x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x2.size a ≤ S3x2.size a
  hwx0_8 : ∀ i : grid0.Coords, EltTy.bits .f32 = 32 ∨ (Rect.block (s := S3x2) S3x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x160000.size a ≤ S3x800000.size a
  hwx0_9 : ∀ i : grid0.Coords, EltTy.bits .f32 = 32 ∨ (Rect.block (s := S3x800000) S3x160000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3x160000.size a ≤ S3x800000.size a
  hwx0_10 : ∀ i : grid0.Coords, EltTy.bits .f32 = 32 ∨ (Rect.block (s := S3x800000) S3x160000.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .bf16 = 32 ∨ (Rect.block (s := S192x128) S192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x192.size a ≤ S50000x192.size a
  hwx1_2 : ∀ i : grid1.Coords, EltTy.bits .f32 = 32 ∨ (Rect.block (s := S50000x192) S5000x192.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .bf16 = 32 ∨ (Rect.block (s := S50000x64) S5000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S120x64.size a ≤ S120x64.size a
  hwx2_1 : ∀ i : grid2.Coords, EltTy.bits .bf16 = 32 ∨ (Rect.block (s := S120x64) S120x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x120.size a ≤ S50000x120.size a
  hwx2_2 : ∀ i : grid2.Coords, EltTy.bits .f32 = 32 ∨ (Rect.block (s := S50000x120) S5000x120.size (cc2_transform_2 i) (hinb2_2 i)).WholeWords (EltTy.packing .f32)

variable [Facts₀]

def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x120_S5000x120_1_0_0_1_n_n : DotDims S5000x64 S64x120 S5000x120 where
  lhsContracting := [1]
  rhsContracting := [0]
  lhsNonContracting := [0]
  rhsNonContracting := [1]
  lhsBatch := []
  rhsBatch := []
  wf := dot_S5000x64_S64x120_S5000x120_1_0_0_1_n_n_wf
def gather_S50000x3x40_S800000x1_S800000x3x40_12_0_n_n_0_1_1340 : GatherDims S50000x3x40 S800000x1 S800000x3x40 where
  offsetDims := [1, 2]
  collapsedSliceDims := [0]
  operandBatchingDims := []
  startIndicesBatchingDims := []
  startIndexMap := [0]
  indexVectorDim := 1
  sliceSizes := ![1, 3, 40]
  wf := gather_S50000x3x40_S800000x1_S800000x3x40_12_0_n_n_0_1_1340_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v0) S2x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S3x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S3x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S2x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S3x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S3x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1_0) S3x160000.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_1) S3x160000.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S120x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x120.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x2 : Shape := ⟨2, ![800000, 2]⟩
abbrev S800000 : Shape := ⟨1, ![800000]⟩
abbrev S2x2 : Shape := ⟨2, ![2, 2]⟩
abbrev S2 : Shape := ⟨1, ![2]⟩
abbrev S192x128 : Shape := ⟨2, ![192, 128]⟩
abbrev S3x2 : Shape := ⟨2, ![3, 2]⟩
abbrev S64 : Shape := ⟨1, ![64]⟩
abbrev S120x64 : Shape := ⟨2, ![120, 64]⟩
abbrev S40 : Shape := ⟨1, ![40]⟩
abbrev S1x2 : Shape := ⟨2, ![1, 2]⟩
abbrev S128x192 : Shape := ⟨2, ![128, 192]⟩
abbrev S50000x192 : Shape := ⟨2, ![50000, 192]⟩
abbrev S50000x3x64 : Shape := ⟨3, ![50000, 3, 64]⟩
abbrev S800000x1x2 : Shape := ⟨3, ![800000, 1, 2]⟩
abbrev S1x3x2 : Shape := ⟨3, ![1, 3, 2]⟩
abbrev S800000x3x2 : Shape := ⟨3, ![800000, 3, 2]⟩
abbrev S_ : Shape := ⟨0, ![]⟩
abbrev S800000x3 : Shape := ⟨2, ![800000, 3]⟩
abbrev S800000x3x1 : Shape := ⟨3, ![800000, 3, 1]⟩
abbrev S800000x1 : Shape := ⟨2, ![800000, 1]⟩
abbrev S800000x3x64 : Shape := ⟨3, ![800000, 3, 64]⟩
abbrev S50000x64 : Shape := ⟨2, ![50000, 64]⟩
abbrev S1x64 : Shape := ⟨2, ![1, 64]⟩
abbrev S64x120 : Shape := ⟨2, ![64, 120]⟩
abbrev S50000x120 : Shape := ⟨2, ![50000, 120]⟩
abbrev S50000x3x40 : Shape := ⟨3, ![50000, 3, 40]⟩
abbrev S800000x3x40 : Shape := ⟨3, ![800000, 3, 40]⟩
abbrev S50000x40 : Shape := ⟨2, ![50000, 40]⟩
abbrev S1x40 : Shape := ⟨2, ![1, 40]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x2, .f32⟩
  | .hbm, ⟨2, _⟩ => ⟨S800000, .i32⟩
  | .hbm, ⟨3, _⟩ => ⟨S800000, .i32⟩
  | .hbm, ⟨4, _⟩ => ⟨S2x2, .f32⟩
  | .hbm, ⟨5, _⟩ => ⟨S2, .f32⟩
  | .hbm, ⟨6, _⟩ => ⟨S192x128, .f32⟩
  | .hbm, ⟨7, _⟩ => ⟨S3x2, .f32⟩
  | .hbm, ⟨8, _⟩ => ⟨S3x2, .f32⟩
  | .hbm, ⟨9, _⟩ => ⟨S64, .f32⟩
  | .hbm, ⟨10, _⟩ => ⟨S2x2, .f32⟩
  | .hbm, ⟨11, _⟩ => ⟨S2, .f32⟩
  | .hbm, ⟨12, _⟩ => ⟨S120x64, .f32⟩
  | .hbm, ⟨13, _⟩ => ⟨S3x2, .f32⟩
  | .hbm, ⟨14, _⟩ => ⟨S3x2, .f32⟩
  | .hbm, ⟨15, _⟩ => ⟨S40, .f32⟩
  | .hbm, ⟨16, _⟩ => ⟨S2x2, .f32⟩
  | .hbm, ⟨17, _⟩ => ⟨S800000x2, .f32⟩
  | .hbm, ⟨18, _⟩ => ⟨S1x2, .f32⟩
  | .hbm, ⟨19, _⟩ => ⟨S800000x2, .f32⟩
  | .hbm, ⟨20, _⟩ => ⟨S800000x2, .f32⟩
  | .hbm, ⟨21, _⟩ => ⟨S800000x2, .f32⟩
  | .hbm, ⟨22, _⟩ => ⟨S128x192, .f32⟩
  | .hbm, ⟨23, _⟩ => ⟨S50000x192, .f32⟩
  | .hbm, ⟨24, _⟩ => ⟨S50000x3x64, .f32⟩
  | .hbm, ⟨25, _⟩ => ⟨S800000x1x2, .f32⟩
  | .hbm, ⟨26, _⟩ => ⟨S1x3x2, .f32⟩
  | .hbm, ⟨27, _⟩ => ⟨S800000x3x2, .f32⟩
  | .hbm, ⟨28, _⟩ => ⟨S800000x3x2, .f32⟩
  | .hbm, ⟨29, _⟩ => ⟨S800000x3x2, .f32⟩
  | .hbm, ⟨30, _⟩ => ⟨S1x3x2, .f32⟩
  | .hbm, ⟨31, _⟩ => ⟨S800000x3x2, .f32⟩
  | .hbm, ⟨32, _⟩ => ⟨S800000x3x2, .f32⟩
  | .hbm, ⟨33, _⟩ => ⟨S800000x3x2, .f32⟩
  | .hbm, ⟨34, _⟩ => ⟨S_, .f32⟩
  | .hbm, ⟨35, _⟩ => ⟨S800000x3, .f32⟩
  | .hbm, ⟨36, _⟩ => ⟨S_, .f32⟩
  | .hbm, ⟨37, _⟩ => ⟨S800000x3, .f32⟩
  | .hbm, ⟨38, _⟩ => ⟨S800000x3, .f32⟩
  | .hbm, ⟨39, _⟩ => ⟨S800000x3, .f32⟩
  | .hbm, ⟨40, _⟩ => ⟨S800000x3x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x3x64, .f32⟩
  | .hbm, ⟨50, _⟩ => ⟨S800000x3x64, .f32⟩
  | .hbm, ⟨51, _⟩ => ⟨S800000x3x64, .f32⟩
  | .hbm, ⟨52, _⟩ => ⟨S_, .f32⟩
  | .hbm, ⟨53, _⟩ => ⟨S50000x3x64, .f32⟩
  | .hbm, ⟨54, _⟩ => ⟨S800000x1, .i32⟩
  | .hbm, ⟨55, _⟩ => ⟨S50000x3x64, .f32⟩
  | .hbm, ⟨56, _⟩ => ⟨S_, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S2x2, .f32⟩
  | .hbm, ⟨62, _⟩ => ⟨S800000x2, .f32⟩
  | .hbm, ⟨63, _⟩ => ⟨S1x2, .f32⟩
  | .hbm, ⟨64, _⟩ => ⟨S800000x2, .f32⟩
  | .hbm, ⟨65, _⟩ => ⟨S800000x2, .f32⟩
  | .hbm, ⟨66, _⟩ => ⟨S800000x2, .f32⟩
  | .hbm, ⟨67, _⟩ => ⟨S64x120, .f32⟩
  | .hbm, ⟨68, _⟩ => ⟨S50000x120, .f32⟩
  | .hbm, ⟨69, _⟩ => ⟨S50000x3x40, .f32⟩
  | .hbm, ⟨70, _⟩ => ⟨S800000x1x2, .f32⟩
  | .hbm, ⟨71, _⟩ => ⟨S1x3x2, .f32⟩
  | .hbm, ⟨72, _⟩ => ⟨S800000x3x2, .f32⟩
  | .hbm, ⟨73, _⟩ => ⟨S800000x3x2, .f32⟩
  | .hbm, ⟨74, _⟩ => ⟨S800000x3x2, .f32⟩
  | .hbm, ⟨75, _⟩ => ⟨S1x3x2, .f32⟩
  | .hbm, ⟨76, _⟩ => ⟨S800000x3x2, .f32⟩
  | .hbm, ⟨77, _⟩ => ⟨S800000x3x2, .f32⟩
  | .hbm, ⟨78, _⟩ => ⟨S800000x3x2, .f32⟩
  | .hbm, ⟨79, _⟩ => ⟨S_, .f32⟩
  | .hbm, ⟨80, _⟩ => ⟨S800000x3, .f32⟩
  | .hbm, ⟨81, _⟩ => ⟨S_, .f32⟩
  | .hbm, ⟨82, _⟩ => ⟨S800000x3, .f32⟩
  | .hbm, ⟨83, _⟩ => ⟨S800000x3, .f32⟩
  | .hbm, ⟨84, _⟩ => ⟨S800000x3, .f32⟩
  | .hbm, ⟨85, _⟩ => ⟨S800000x3x1, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x3x40, .f32⟩
  | .hbm, ⟨95, _⟩ => ⟨S800000x3x40, .f32⟩
  | .hbm, ⟨96, _⟩ => ⟨S800000x3x40, .f32⟩
  | .hbm, ⟨97, _⟩ => ⟨S_, .f32⟩
  | .hbm, ⟨98, _⟩ => ⟨S50000x3x40, .f32⟩
  | .hbm, ⟨99, _⟩ => ⟨S800000x1, .i32⟩
  | .hbm, ⟨100, _⟩ => ⟨S50000x3x40, .f32⟩
  | .hbm, ⟨101, _⟩ => ⟨S_, .f32⟩
  | .hbm, ⟨102, _⟩ => ⟨S50000x40, .f32⟩
  | .hbm, ⟨103, _⟩ => ⟨S1x40, .f32⟩
  | .hbm, ⟨104, _⟩ => ⟨S50000x40, .f32⟩
  | .hbm, ⟨105, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_cst_5 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_6 : Ref sig .tc := ⟨.hbm, 86, rfl⟩
abbrev main_v62 : Ref sig .tc := ⟨.hbm, 87, rfl⟩
abbrev main_v63 : Ref sig .tc := ⟨.hbm, 88, rfl⟩
abbrev main_c_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  transposes_S2x2_S2x2_1_0 : S2x2.Transposes [1, 0] S2x2
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  transposes_S192x128_S128x192_1_0 : S192x128.Transposes [1, 0] S128x192
  shapeCasts_S50000x192_S50000x3x64 : S50000x192.ShapeCasts S50000x3x64
  bcast_S800000x2_S800000x1x2_0_2 : S800000x2.BroadcastsInDim S800000x1x2 (![0, 2] : Fin 2 → Fin S800000x1x2.rank)
  bcast_S3x2_S1x3x2_1_2 : S3x2.BroadcastsInDim S1x3x2 (![1, 2] : Fin 2 → Fin S1x3x2.rank)
  bcast_S800000x1x2_S800000x3x2_0_1_2 : S800000x1x2.BroadcastsInDim S800000x3x2 (![0, 1, 2] : Fin 3 → Fin S800000x3x2.rank)
  bcast_S1x3x2_S800000x3x2_0_1_2 : S1x3x2.BroadcastsInDim S800000x3x2 (![0, 1, 2] : Fin 3 → Fin S800000x3x2.rank)
  reducesTo_S800000x3x2_S800000x3_d2 : S800000x3x2.ReducesTo [2] S800000x3
  h_S_ : 0 < S_.numel
  bcast_S_S800000x3 : S_.BroadcastsInDim S800000x3 (![] : Fin 0 → Fin S800000x3.rank)
  bcast_S800000x3_S800000x3x1_0_1 : S800000x3.BroadcastsInDim S800000x3x1 (![0, 1] : Fin 2 → Fin S800000x3x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x3x1_S800000x3x64_0_1_2 : S800000x3x1.BroadcastsInDim S800000x3x64 (![0, 1, 2] : Fin 3 → Fin S800000x3x64.rank)
  bcast_S_S50000x3x64 : S_.BroadcastsInDim S50000x3x64 (![] : Fin 0 → Fin S50000x3x64.rank)
  reducesTo_S50000x3x64_S50000x64_d1 : S50000x3x64.ReducesTo [1] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S120x64_S64x120_1_0 : S120x64.Transposes [1, 0] S64x120
  shapeCasts_S50000x120_S50000x3x40 : S50000x120.ShapeCasts S50000x3x40
  bcast_S800000x3x1_S800000x3x40_0_1_2 : S800000x3x1.BroadcastsInDim S800000x3x40 (![0, 1, 2] : Fin 3 → Fin S800000x3x40.rank)
  bcast_S_S50000x3x40 : S_.BroadcastsInDim S50000x3x40 (![] : Fin 0 → Fin S50000x3x40.rank)
  reducesTo_S50000x3x40_S50000x40_d1 : S50000x3x40.ReducesTo [1] S50000x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S800000x2_S2x2_S800000x2_1_0_0_1_n_n_wf : DotDims.WF S800000x2 S2x2 S800000x2 [1] [0] [0] [1] [] []
  dot_S50000x128_S128x192_S50000x192_1_0_0_1_n_n_wf : DotDims.WF S50000x128 S128x192 S50000x192 [1] [0] [0] [1] [] []
  gather_S50000x3x64_S800000x1_S800000x3x64_12_0_n_n_0_1_1364_wf : GatherDims.WF S50000x3x64 S800000x1 S800000x3x64 [1, 2] [0] [] [0] [] 1 ![1, 3, 64]
  scatter_S50000x3x64_S800000x1_S800000x3x64_12_0_0_1_wf : ScatterDims.WF S50000x3x64 S800000x1 S800000x3x64 [1, 2] [0] [0] 1
  dot_S50000x64_S64x120_S50000x120_1_0_0_1_n_n_wf : DotDims.WF S50000x64 S64x120 S50000x120 [1] [0] [0] [1] [] []
  gather_S50000x3x40_S800000x1_S800000x3x40_12_0_n_n_0_1_1340_wf : GatherDims.WF S50000x3x40 S800000x1 S800000x3x40 [1, 2] [0] [] [0] [] 1 ![1, 3, 40]
  scatter_S50000x3x40_S800000x1_S800000x3x40_12_0_0_1_wf : ScatterDims.WF S50000x3x40 S800000x1 S800000x3x40 [1, 2] [0] [0] 1

variable [Facts₀]

def dot_S800000x2_S2x2_S800000x2_1_0_0_1_n_n : DotDims S800000x2 S2x2 S800000x2 where
  lhsContracting := [1]
  rhsContracting := [0]
  lhsNonContracting := [0]
  rhsNonContracting := [1]
  lhsBatch := []
  rhsBatch := []
  wf := dot_S800000x2_S2x2_S800000x2_1_0_0_1_n_n_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf
def dot_S50000x64_S64x120_S50000x120_1_0_0_1_n_n : DotDims S50000x64 S64x120 S50000x120 where
  lhsContracting := [1]
  rhsContracting := [0]
  lhsNonContracting := [0]
  rhsNonContracting := [1]
  lhsBatch := []
  rhsBatch := []
  wf := dot_S50000x64_S64x120_S50000x120_1_0_0_1_n_n_wf
def gather_S50000x3x40_S800000x1_S800000x3x40_12_0_n_n_0_1_1340 : GatherDims S50000x3x40 S800000x1 S800000x3x40 where
  offsetDims := [1, 2]
  collapsedSliceDims := [0]
  operandBatchingDims := []
  startIndicesBatchingDims := []
  startIndexMap := [0]
  indexVectorDim := 1
  sliceSizes := ![1, 3, 40]
  wf := gather_S50000x3x40_S800000x1_S800000x3x40_12_0_n_n_0_1_1340_wf
def scatter_S50000x3x40_S800000x1_S800000x3x40_12_0_0_1 : ScatterDims S50000x3x40 S800000x1 S800000x3x40 where
  updateWindowDims := [1, 2]
  insertedWindowDims := [0]
  scatterDimsToOperandDims := [0]
  indexVectorDim := 1
  wf := scatter_S50000x3x40_S800000x1_S800000x3x40_12_0_0_1_wf

class Facts : Prop extends Facts₀ where

variable [Facts]
-- ==== Proof.Spec.lean ====
/-
  What the two programs compute, as functions of whole arrays read index by index on the extended reals.

  * `coord`: edge `e`'s projected pseudo-coordinate `j`, `tanh (w[j,0] · p[0,e] + w[j,1] · p[1,e] + b[j])`, over the
    pseudo-coordinates laid out channel-major `[2, E]`.
  * `gauss`: the Gaussian mixture weight of component `k` on edge `e`,
    `exp (-1/2 · Σⱼ ((coord j e - μ[k,j]) · σ⁻¹[k,j])²)`, laid out `[K, E]`.
  * `proj`: a linear projection `x · wᵀ`: at `(r, c)` the sum over `k` of `x[r,k] · w[c,k]`.
-/
import proofs.«147331_j1211180777632_1_alg».proof.KernelIdeal
import Idealize.ShloMosaic.PureOps.Ideal.Laws
import Idealize.ShloMosaic.Lib.ValueIdx

noncomputable section

namespace Cert.Spec

open Idealize.ShloMosaic Idealize.ShloMosaic.ValueIdx Cert.KernelIdeal
open scoped BigOperators

/-- Edge `e`'s projected pseudo-coordinate `j`. -/
def coord (pT : S2x800000.Idx → EReal) (ppw : S2x2.Idx → EReal) (ppb : S2.Idx → EReal) (j : Fin 2) (e : Fin 800000) : EReal :=
  Ideal.tanh (ppw (ix2 j (0 : Fin 2)) * pT (ix2 (0 : Fin 2) e) + ppw (ix2 j (1 : Fin 2)) * pT (ix2 (1 : Fin 2) e) + ppb (ix1 j))

/-- The scaled offset of coordinate `j` from component `k`'s mean. -/
def offs (pT : S2x800000.Idx → EReal) (ppw : S2x2.Idx → EReal) (ppb : S2.Idx → EReal) (mu is : S3x2.Idx → EReal)
    (k : Fin 3) (j : Fin 2) (e : Fin 800000) : EReal :=
  (coord pT ppw ppb j e - mu (ix2 k j)) * is (ix2 k j)

/-- Component `k`'s weight on edge `e`. -/
def gaussAt (pT : S2x800000.Idx → EReal) (ppw : S2x2.Idx → EReal) (ppb : S2.Idx → EReal) (mu is : S3x2.Idx → EReal)
    (k : Fin 3) (e : Fin 800000) : EReal :=
  Ideal.exp (Ideal.ofBits .f32 0xBF000000#32
    * (offs pT ppw ppb mu is k 0 e * offs pT ppw ppb mu is k 0 e + offs pT ppw ppb mu is k 1 e * offs pT ppw ppb mu is k 1 e))

/-- The weights as a `[K, E]` array. -/
def gauss (pT : S2x800000.Idx → EReal) (ppw : S2x2.Idx → EReal) (ppb : S2.Idx → EReal) (mu is : S3x2.Idx → EReal) :
    S3x800000.Idx → EReal := fun i => gaussAt pT ppw ppb mu is (i 0) (i 1)

/-- `x · wᵀ` at `(r, c)`. -/
def projAt {M K N : ℕ} (x : (⟨2, ![M, K]⟩ : Shape).Idx → EReal) (w : (⟨2, ![N, K]⟩ : Shape).Idx → EReal) (r : Fin M) (c : Fin N) : EReal :=
  ∑ k : Fin K, x (ix2 r k) * w (ix2 c k)

/-- `x · wᵀ` as an `[M, N]` array. -/
def proj {M K N : ℕ} (x : (⟨2, ![M, K]⟩ : Shape).Idx → EReal) (w : (⟨2, ![N, K]⟩ : Shape).Idx → EReal) :
    (⟨2, ![M, N]⟩ : Shape).Idx → EReal := fun i => projAt x w (i 0) (i 1)

end Cert.Spec

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.Region0.lean ====
/-
  The first pallas_call, read as a whole: five grid points, each taking a [2, 160000] block of the channel-major
  pseudo-coordinates and leaving a [3, 160000] block of each layer's mixture weights. Whatever the region-entry
  contents, each result array ends holding the mixture weights of the entry arrays, index by index.

  The argument, in order:
  * one entry of the weights is one function `weightOf` of a column of the pseudo-coordinates and of the ten entries of the
    layer's projection, means and inverse widths it depends on; the specification's `gaussAt` is that function of the
    arrays' entries;
  * each of the six stored rows (three per layer), read at a column, is `weightOf` of what its loads read: the leading
    zero of the kernel's running sum is the real zero and drops out of the sum;
  * a loaded `[1, 1]` or `[1]` piece is one entry of its array and a loaded `[1, 160000]` row is one row of the block, so a
    stored row is a row of the weights of the block's columns;
  * three rows tile the `[3, 160000]` block, so the block a point leaves is the weights of its columns; at grid point `t`
    those are columns `160000 t … 160000 t + 159999` of the array, every other operand being its whole array;
  * column `e` of the result lies in the block of point `e / 160000`, so the five blocks cover the array.
-/
import proofs.«147331_j1211180777632_1_alg».proof.Proof.Gen.KernelIdeal.Frame
import proofs.«147331_j1211180777632_1_alg».proof.Proof.Spec
import proofs.«147331_j1211180777632_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## One entry of the weights -/

/-- The weight `exp (-1/2 · (((tanh (w₀₀ p₀ + w₀₁ p₁ + b₀) - m₀) s₀)² + ((tanh (w₁₀ p₀ + w₁₁ p₁ + b₁) - m₁) s₁)²))` of one
    component on one edge: `p₀, p₁` the edge's pseudo-coordinates, `w, b` the projection, `m, s` the component's means and
    inverse widths; a square is written as a product. -/
def weightOf (p0 p1 w00 w01 b0 w10 w11 b1 m0 s0 m1 s1 : EReal) : EReal :=
  Ideal.exp (Ideal.ofBits .f32 0xBF000000#32 *
    ((Ideal.tanh (w00 * p0 + w01 * p1 + b0) - m0) * s0 * ((Ideal.tanh (w00 * p0 + w01 * p1 + b0) - m0) * s0)
      + (Ideal.tanh (w10 * p0 + w11 * p1 + b1) - m1) * s1 * ((Ideal.tanh (w10 * p0 + w11 * p1 + b1) - m1) * s1)))

/-- The specification's weight of component `k` on edge `e` is `weightOf` of the arrays' entries. -/
theorem gaussAt_eq (pT : S2x800000.Idx → EReal) (ppw : S2x2.Idx → EReal) (ppb : S2.Idx → EReal) (mu is : S3x2.Idx → EReal)
    (k : Fin 3) (e : Fin 800000) :
    Cert.Spec.gaussAt pT ppw ppb mu is k e
      = weightOf (pT (ix2 (0 : Fin 2) e)) (pT (ix2 (1 : Fin 2) e))
          (ppw (ix2 (0 : Fin 2) (0 : Fin 2))) (ppw (ix2 (0 : Fin 2) (1 : Fin 2))) (ppb (ix1 (0 : Fin 2)))
          (ppw (ix2 (1 : Fin 2) (0 : Fin 2))) (ppw (ix2 (1 : Fin 2) (1 : Fin 2))) (ppb (ix1 (1 : Fin 2)))
          (mu (ix2 k (0 : Fin 2))) (is (ix2 k (0 : Fin 2))) (mu (ix2 k (1 : Fin 2))) (is (ix2 k (1 : Fin 2))) := rfl

/-! ## The six stored rows at a column

Each row's term is `exp (c · ((0 + d₀ · d₀) + d₁ · d₁))` with `dⱼ = (tanh (…) - μ) · σ⁻¹` built from broadcast entries; the
three rows of a layer differ in how the body shares the two projected coordinates between them, not in what they compute.
Read at a column the broadcasts are their entries, the zero word is the real zero, and `0 + x = x`. -/

section Rows

variable (v0 v2 : Vec Ideal S1x160000 .f32) (w00 w01 w10 w11 : Vec Ideal S1x1 .f32) (b0 b1 : Vec Ideal S1 .f32)
  (m0 s0 m1 s1 : Vec Ideal S1x1 .f32) (y : S1x160000.Idx)

/-- Layer 0, row 0. -/
theorem row0_l0 :
    k0_pay9 (k0_pay5 v0 v2 w10 w11 b1) (k0_pay6 (F := Ideal)) (k0_pay7 v0 v2 w00 w01 b0 m0) (k0_pay8 s0) m1 s1 y
      = weightOf (v0 y) (v2 y) (extractAt ![0, 0] w00 inpos_S1x1_p0_0) (extractAt ![0, 0] w01 inpos_S1x1_p0_0) (extractAt ![0] b0 inpos_S1_p0)
          (extractAt ![0, 0] w10 inpos_S1x1_p0_0) (extractAt ![0, 0] w11 inpos_S1x1_p0_0) (extractAt ![0] b1 inpos_S1_p0)
          (extractAt ![0, 0] m0 inpos_S1x1_p0_0) (extractAt ![0, 0] s0 inpos_S1x1_p0_0) (extractAt ![0, 0] m1 inpos_S1x1_p0_0) (extractAt ![0, 0] s1 inpos_S1x1_p0_0) := by
  unfold k0_pay9 k0_pay5 k0_pay6 k0_pay7 k0_pay8 k0_pay4 k0_pay2 k0_pay3
  rw [shapeCast_self, shapeCast_self]
  show Ideal.exp (_ * ((Ideal.ofBits .f32 0x00000000#32 + _) + _)) = _
  rw [Ideal.ofBits_zero_f32, zero_add]
  rfl

/-- Layer 0, row 1. -/
theorem row1_l0 :
    k0_pay10 (k0_pay4 v0 v2 w00 w01 b0) (k0_pay5 v0 v2 w10 w11 b1) m0 s0 m1 s1 y
      = weightOf (v0 y) (v2 y) (extractAt ![0, 0] w00 inpos_S1x1_p0_0) (extractAt ![0, 0] w01 inpos_S1x1_p0_0) (extractAt ![0] b0 inpos_S1_p0)
          (extractAt ![0, 0] w10 inpos_S1x1_p0_0) (extractAt ![0, 0] w11 inpos_S1x1_p0_0) (extractAt ![0] b1 inpos_S1_p0)
          (extractAt ![0, 0] m0 inpos_S1x1_p0_0) (extractAt ![0, 0] s0 inpos_S1x1_p0_0) (extractAt ![0, 0] m1 inpos_S1x1_p0_0) (extractAt ![0, 0] s1 inpos_S1x1_p0_0) := by
  unfold k0_pay10 k0_pay4 k0_pay5 k0_pay2 k0_pay3
  rw [shapeCast_self, shapeCast_self]
  show Ideal.exp (_ * ((Ideal.ofBits .f32 0x00000000#32 + _) + _)) = _
  rw [Ideal.ofBits_zero_f32, zero_add]
  rfl

/-- Layer 0, row 2. -/
theorem row2_l0 :
    k0_pay11 (k0_pay4 v0 v2 w00 w01 b0) (k0_pay5 v0 v2 w10 w11 b1) m0 s0 m1 s1 y
      = weightOf (v0 y) (v2 y) (extractAt ![0, 0] w00 inpos_S1x1_p0_0) (extractAt ![0, 0] w01 inpos_S1x1_p0_0) (extractAt ![0] b0 inpos_S1_p0)
          (extractAt ![0, 0] w10 inpos_S1x1_p0_0) (extractAt ![0, 0] w11 inpos_S1x1_p0_0) (extractAt ![0] b1 inpos_S1_p0)
          (extractAt ![0, 0] m0 inpos_S1x1_p0_0) (extractAt ![0, 0] s0 inpos_S1x1_p0_0) (extractAt ![0, 0] m1 inpos_S1x1_p0_0) (extractAt ![0, 0] s1 inpos_S1x1_p0_0) := by
  unfold k0_pay11 k0_pay4 k0_pay5 k0_pay2 k0_pay3
  rw [shapeCast_self, shapeCast_self]
  show Ideal.exp (_ * ((Ideal.ofBits .f32 0x00000000#32 + _) + _)) = _
  rw [Ideal.ofBits_zero_f32, zero_add]
  rfl

/-- Layer 1, row 0. -/
theorem row0_l1 :
    k0_pay14 (k0_pay2 v0) (k0_pay3 v2) (k0_pay12 (k0_pay2 v0) (k0_pay3 v2) w00 w01 b0) w10 w11 b1 m0 s0 m1 s1 y
      = weightOf (v0 y) (v2 y) (extractAt ![0, 0] w00 inpos_S1x1_p0_0) (extractAt ![0, 0] w01 inpos_S1x1_p0_0) (extractAt ![0] b0 inpos_S1_p0)
          (extractAt ![0, 0] w10 inpos_S1x1_p0_0) (extractAt ![0, 0] w11 inpos_S1x1_p0_0) (extractAt ![0] b1 inpos_S1_p0)
          (extractAt ![0, 0] m0 inpos_S1x1_p0_0) (extractAt ![0, 0] s0 inpos_S1x1_p0_0) (extractAt ![0, 0] m1 inpos_S1x1_p0_0) (extractAt ![0, 0] s1 inpos_S1x1_p0_0) := by
  unfold k0_pay14 k0_pay13 k0_pay12 k0_pay2 k0_pay3
  rw [shapeCast_self, shapeCast_self]
  show Ideal.exp (_ * ((Ideal.ofBits .f32 0x00000000#32 + _) + _)) = _
  rw [Ideal.ofBits_zero_f32, zero_add]
  rfl

/-- Layer 1, row 1. -/
theorem row1_l1 :
    k0_pay16 (k0_pay12 (k0_pay2 v0) (k0_pay3 v2) w00 w01 b0) (k0_pay13 (k0_pay2 v0) (k0_pay3 v2) w10 w11 b1) (k0_pay15 (F := Ideal)) m0 s0 m1 s1 y
      = weightOf (v0 y) (v2 y) (extractAt ![0, 0] w00 inpos_S1x1_p0_0) (extractAt ![0, 0] w01 inpos_S1x1_p0_0) (extractAt ![0] b0 inpos_S1_p0)
          (extractAt ![0, 0] w10 inpos_S1x1_p0_0) (extractAt ![0, 0] w11 inpos_S1x1_p0_0) (extractAt ![0] b1 inpos_S1_p0)
          (extractAt ![0, 0] m0 inpos_S1x1_p0_0) (extractAt ![0, 0] s0 inpos_S1x1_p0_0) (extractAt ![0, 0] m1 inpos_S1x1_p0_0) (extractAt ![0, 0] s1 inpos_S1x1_p0_0) := by
  unfold k0_pay16 k0_pay15 k0_pay13 k0_pay12 k0_pay2 k0_pay3
  rw [shapeCast_self, shapeCast_self]
  show Ideal.exp (_ * ((Ideal.ofBits .f32 0x00000000#32 + _) + _)) = _
  rw [Ideal.ofBits_zero_f32, zero_add]
  rfl

/-- Layer 1, row 2. -/
theorem row2_l1 :
    k0_pay1 (k0_pay17 (k0_pay12 (k0_pay2 v0) (k0_pay3 v2) w00 w01 b0) m0 s0) (k0_pay18 (k0_pay13 (k0_pay2 v0) (k0_pay3 v2) w10 w11 b1) m1) s1 y
      = weightOf (v0 y) (v2 y) (extractAt ![0, 0] w00 inpos_S1x1_p0_0) (extractAt ![0, 0] w01 inpos_S1x1_p0_0) (extractAt ![0] b0 inpos_S1_p0)
          (extractAt ![0, 0] w10 inpos_S1x1_p0_0) (extractAt ![0, 0] w11 inpos_S1x1_p0_0) (extractAt ![0] b1 inpos_S1_p0)
          (extractAt ![0, 0] m0 inpos_S1x1_p0_0) (extractAt ![0, 0] s0 inpos_S1x1_p0_0) (extractAt ![0, 0] m1 inpos_S1x1_p0_0) (extractAt ![0, 0] s1 inpos_S1x1_p0_0) := by
  unfold k0_pay1 k0_pay17 k0_pay18 k0_pay13 k0_pay12 k0_pay2 k0_pay3
  rw [shapeCast_self, shapeCast_self]
  show Ideal.exp (_ * ((Ideal.ofBits .f32 0x00000000#32 + _) + _)) = _
  rw [Ideal.ofBits_zero_f32, zero_add]
  rfl

end Rows

/-! ## What the loads read -/

/-- A `[1, 1]` piece loaded at offsets `(i, j)` of a two-axis array has the array's entry `(i, j)` as its one entry. -/
theorem entry2 {n0 n1 : ℕ} (x : Vec Ideal ⟨2, ![n0, n1]⟩ .f32) (off : Fin 2 → ℕ)
    (inb : ∀ a, off a + S1x1.size a ≤ (⟨2, ![n0, n1]⟩ : Shape).size a) (h : ∀ a, (![0, 0] : Fin 2 → ℕ) a < S1x1.size a)
    (i : Fin n0) (j : Fin n1) (hi : off 0 = i.val) (hj : off 1 = j.val) :
    extractAt ![0, 0] (View.ld x (Rect.unit (s := ⟨2, ![n0, n1]⟩) off S1x1.size inb)) h = x (ix2 i j) :=
  congrArg x (funext fun a => Fin.ext (by
    match a with
    | ⟨0, _⟩ => show off 0 + 1 * 0 = i.val; omega
    | ⟨1, _⟩ => show off 1 + 1 * 0 = j.val; omega))

/-- A `[1]` piece loaded at offset `i` of a one-axis array has the array's entry `i` as its one entry. -/
theorem entry1 {n : ℕ} (x : Vec Ideal ⟨1, ![n]⟩ .f32) (off : Fin 1 → ℕ)
    (inb : ∀ a, off a + S1.size a ≤ (⟨1, ![n]⟩ : Shape).size a) (h : ∀ a, (![0] : Fin 1 → ℕ) a < S1.size a)
    (i : Fin n) (hi : off 0 = i.val) :
    extractAt ![0] (View.ld x (Rect.unit (s := ⟨1, ![n]⟩) off S1.size inb)) h = x (ix1 i) :=
  congrArg x (funext fun a => Fin.ext (by
    match a with
    | ⟨0, _⟩ => show off 0 + 1 * 0 = i.val; omega))

/-- A `[1, n]` row piece loaded at offsets `(r, 0)` of an `[m, n]` array reads, at column `e`, the array's entry `(r, e)`. -/
theorem rowLd {m n : ℕ} (x : Vec Ideal ⟨2, ![m, n]⟩ .f32) (off : Fin 2 → ℕ)
    (inb : ∀ a, off a + (![1, n] : Fin 2 → ℕ) a ≤ (⟨2, ![m, n]⟩ : Shape).size a)
    (r : Fin m) (hr : off 0 = r.val) (hc : off 1 = 0) (e : Fin n) :
    View.ld x (Rect.unit (s := ⟨2, ![m, n]⟩) off ![1, n] inb) (ix2 (0 : Fin 1) e) = x (ix2 r e) :=
  congrArg x (funext fun a => Fin.ext (by
    match a with
    | ⟨0, _⟩ => show off 0 + 1 * 0 = r.val; omega
    | ⟨1, _⟩ => show off 1 + 1 * e.val = e.val; omega))

/-- The weight of what row `k`'s loads read is the weight of the block's column `e` and of the arrays' entries: the two
    rows of the block, the projection's four entries and two biases, and row `k` of the means and of the inverse widths,
    loaded at offsets `(k, 0)` and `(k, 1)`. -/
theorem weightOf_loads (x0 : Vec Ideal S2x160000 .f32) (w : Vec Ideal S2x2 .f32) (b : Vec Ideal S2 .f32) (mu is : Vec Ideal S3x2 .f32)
    (k : Fin 3) (o0 o1 : Fin 2 → ℕ) (inb0 : ∀ a, o0 a + S1x1.size a ≤ S3x2.size a) (inb1 : ∀ a, o1 a + S1x1.size a ≤ S3x2.size a)
    (h00 : o0 0 = k.val) (h01 : o0 1 = 0) (h10 : o1 0 = k.val) (h11 : o1 1 = 1) (e : Fin 160000) :
    weightOf (View.ld x0 r0_0 (ix2 (0 : Fin 1) e)) (View.ld x0 r0_1 (ix2 (0 : Fin 1) e))
        (extractAt ![0, 0] (View.ld w r0_2) inpos_S1x1_p0_0) (extractAt ![0, 0] (View.ld w r0_3) inpos_S1x1_p0_0) (extractAt ![0] (View.ld b r0_4) inpos_S1_p0)
        (extractAt ![0, 0] (View.ld w r0_5) inpos_S1x1_p0_0) (extractAt ![0, 0] (View.ld w r0_6) inpos_S1x1_p0_0) (extractAt ![0] (View.ld b r0_7) inpos_S1_p0)
        (extractAt ![0, 0] (View.ld mu (Rect.unit (s := S3x2) o0 S1x1.size inb0)) inpos_S1x1_p0_0)
        (extractAt ![0, 0] (View.ld is (Rect.unit (s := S3x2) o0 S1x1.size inb0)) inpos_S1x1_p0_0)
        (extractAt ![0, 0] (View.ld mu (Rect.unit (s := S3x2) o1 S1x1.size inb1)) inpos_S1x1_p0_0)
        (extractAt ![0, 0] (View.ld is (Rect.unit (s := S3x2) o1 S1x1.size inb1)) inpos_S1x1_p0_0)
      = weightOf (x0 (ix2 (0 : Fin 2) e)) (x0 (ix2 (1 : Fin 2) e))
          (w (ix2 (0 : Fin 2) (0 : Fin 2))) (w (ix2 (0 : Fin 2) (1 : Fin 2))) (b (ix1 (0 : Fin 2)))
          (w (ix2 (1 : Fin 2) (0 : Fin 2))) (w (ix2 (1 : Fin 2) (1 : Fin 2))) (b (ix1 (1 : Fin 2)))
          (mu (ix2 k (0 : Fin 2))) (is (ix2 k (0 : Fin 2))) (mu (ix2 k (1 : Fin 2))) (is (ix2 k (1 : Fin 2))) := by
  rw [rowLd x0 ![0, 0] inb_S2x160000_S1x160000_0_0 0 rfl rfl e, rowLd x0 ![1, 0] inb_S2x160000_S1x160000_1_0 1 rfl rfl e,
    entry2 w ![0, 0] inb_S2x2_S1x1_0_0 inpos_S1x1_p0_0 0 0 rfl rfl, entry2 w ![0, 1] inb_S2x2_S1x1_0_1 inpos_S1x1_p0_0 0 1 rfl rfl,
    entry1 b ![0] inb_S2_S1_0 inpos_S1_p0 0 rfl,
    entry2 w ![1, 0] inb_S2x2_S1x1_1_0 inpos_S1x1_p0_0 1 0 rfl rfl, entry2 w ![1, 1] inb_S2x2_S1x1_1_1 inpos_S1x1_p0_0 1 1 rfl rfl,
    entry1 b ![1] inb_S2_S1_1 inpos_S1_p0 1 rfl,
    entry2 mu o0 inb0 inpos_S1x1_p0_0 k 0 h00 h01, entry2 is o0 inb0 inpos_S1x1_p0_0 k 0 h00 h01,
    entry2 mu o1 inb1 inpos_S1x1_p0_0 k 1 h10 h11, entry2 is o1 inb1 inpos_S1x1_p0_0 k 1 h10 h11]

/-! ## Three rows tile the block -/

/-- Three row pieces that tile a `[3, 160000]` block, each agreeing with one function of the block's index along its row,
    leave that function: every index is in one of the rows, and the first piece that holds it has the function's value. -/
theorem canon_rows (p2 p1 p0 : FVec Ideal S1x160000 .f32) (G : S3x160000.Idx → EReal)
    (h0 : ∀ e : Fin 160000, p0 (ix2 (0 : Fin 1) e) = G (ix2 (0 : Fin 3) e))
    (h1 : ∀ e : Fin 160000, p1 (ix2 (0 : Fin 1) e) = G (ix2 (1 : Fin 3) e))
    (h2 : ∀ e : Fin 160000, p2 (ix2 (0 : Fin 1) e) = G (ix2 (2 : Fin 3) e)) :
    View.canon ([⟨r0_16, p2⟩, ⟨r0_13, p1⟩, ⟨r0_10, p0⟩] : List (View.Piece (Elt Ideal) S3x160000 .f32)) = G := by
  funext y
  have hc := cover0_9 (F := Ideal) p2 p1 p0 y
  refine View.canon_apply_of_pieces (Val := Elt Ideal) (S := S3x160000) (e := .f32) G
    ([⟨r0_16, p2⟩, ⟨r0_13, p1⟩, ⟨r0_10, p0⟩] : List (View.Piece (Elt Ideal) S3x160000 .f32)) (fun p hp x => ?_) y hc
  rcases List.mem_cons.mp hp with rfl | hp
  · obtain ⟨u, e, rfl⟩ : ∃ (u : Fin 1) (e : Fin 160000), x = ix2 u e := ⟨x 0, x 1, eq_ix2 x⟩
    obtain rfl : u = 0 := Subsingleton.elim _ _
    refine (h2 e).trans (congrArg G (funext fun a => Fin.ext ?_))
    match a with
    | ⟨0, _⟩ => rfl
    | ⟨1, _⟩ => show e.val = 0 + 1 * e.val; omega
  rcases List.mem_cons.mp hp with rfl | hp
  · obtain ⟨u, e, rfl⟩ : ∃ (u : Fin 1) (e : Fin 160000), x = ix2 u e := ⟨x 0, x 1, eq_ix2 x⟩
    obtain rfl : u = 0 := Subsingleton.elim _ _
    refine (h1 e).trans (congrArg G (funext fun a => Fin.ext ?_))
    match a with
    | ⟨0, _⟩ => rfl
    | ⟨1, _⟩ => show e.val = 0 + 1 * e.val; omega
  obtain rfl := List.mem_singleton.mp hp
  obtain ⟨u, e, rfl⟩ : ∃ (u : Fin 1) (e : Fin 160000), x = ix2 u e := ⟨x 0, x 1, eq_ix2 x⟩
  obtain rfl : u = 0 := Subsingleton.elim _ _
  refine (h0 e).trans (congrArg G (funext fun a => Fin.ext ?_))
  match a with
  | ⟨0, _⟩ => rfl
  | ⟨1, _⟩ => show e.val = 0 + 1 * e.val; omega

/-! ## A block of the weights -/

/-- Column block `n` of the weights: rows `0 … 2`, columns `160000 n … 160000 n + 159999`. -/
def gaussBlk (pT : S2x800000.Idx → EReal) (ppw : S2x2.Idx → EReal) (ppb : S2.Idx → EReal) (mu is : S3x2.Idx → EReal)
    (n : ℕ) (hn : n < 5) : S3x160000.Idx → EReal :=
  fun y => Cert.Spec.gaussAt pT ppw ppb mu is ⟨(y 0).val, idx2_lt0 y⟩
    ⟨n * 160000 + (y 1).val, by have := idx2_lt1 y; omega⟩

/-- The weight of the entries of a block that is column block `n` of the pseudo-coordinates is the block of the weights. -/
theorem weightOf_blk (pT : S2x800000.Idx → EReal) (x0 : Vec Ideal S2x160000 .f32) (w : Vec Ideal S2x2 .f32) (b : Vec Ideal S2 .f32)
    (mu is : Vec Ideal S3x2 .f32) (n : ℕ) (hn : n < 5)
    (hx0 : ∀ (r : Fin 2) (e : Fin 160000), x0 (ix2 r e) = pT (ix2 r ⟨n * 160000 + e.val, by omega⟩))
    (k : Fin 3) (e : Fin 160000) :
    weightOf (x0 (ix2 (0 : Fin 2) e)) (x0 (ix2 (1 : Fin 2) e))
        (w (ix2 (0 : Fin 2) (0 : Fin 2))) (w (ix2 (0 : Fin 2) (1 : Fin 2))) (b (ix1 (0 : Fin 2)))
        (w (ix2 (1 : Fin 2) (0 : Fin 2))) (w (ix2 (1 : Fin 2) (1 : Fin 2))) (b (ix1 (1 : Fin 2)))
        (mu (ix2 k (0 : Fin 2))) (is (ix2 k (0 : Fin 2))) (mu (ix2 k (1 : Fin 2))) (is (ix2 k (1 : Fin 2)))
      = gaussBlk pT w b mu is n hn (ix2 k e) := by
  rw [hx0 0 e, hx0 1 e]
  rfl

/-- What the body leaves in layer 0's block, from input blocks of which the first is column block `n` of the
    pseudo-coordinates: that block of layer 0's weights. -/
theorem out9_blk (pT : S2x800000.Idx → EReal) (x0 : Vec Ideal S2x160000 .f32) (x1 : Vec Ideal S2x2 .f32) (x2 : Vec Ideal S2 .f32)
    (x3 x4 : Vec Ideal S3x2 .f32) (x5 : Vec Ideal S2x2 .f32) (x6 : Vec Ideal S2 .f32) (x7 x8 : Vec Ideal S3x2 .f32) (n : ℕ) (hn : n < 5)
    (hx0 : ∀ (r : Fin 2) (e : Fin 160000), x0 (ix2 r e) = pT (ix2 r ⟨n * 160000 + e.val, by omega⟩)) :
    out0_9 x0 x1 x2 x3 x4 x5 x6 x7 x8 = gaussBlk pT x1 x2 x3 x4 n hn := by
  unfold out0_9
  refine canon_rows _ _ _ _ (fun e => ?_) (fun e => ?_) (fun e => ?_)
  · exact (row0_l0 _ _ _ _ _ _ _ _ _ _ _ _ _).trans
      ((weightOf_loads x0 x1 x2 x3 x4 0 ![0, 0] ![0, 1] inb_S3x2_S1x1_0_0 inb_S3x2_S1x1_0_1 rfl rfl rfl rfl e).trans
        (weightOf_blk pT x0 x1 x2 x3 x4 n hn hx0 0 e))
  · exact (row1_l0 _ _ _ _ _ _ _ _ _ _ _ _ _).trans
      ((weightOf_loads x0 x1 x2 x3 x4 1 ![1, 0] ![1, 1] inb_S3x2_S1x1_1_0 inb_S3x2_S1x1_1_1 rfl rfl rfl rfl e).trans
        (weightOf_blk pT x0 x1 x2 x3 x4 n hn hx0 1 e))
  · exact (row2_l0 _ _ _ _ _ _ _ _ _ _ _ _ _).trans
      ((weightOf_loads x0 x1 x2 x3 x4 2 ![2, 0] ![2, 1] inb_S3x2_S1x1_2_0 inb_S3x2_S1x1_2_1 rfl rfl rfl rfl e).trans
        (weightOf_blk pT x0 x1 x2 x3 x4 n hn hx0 2 e))

/-- The same for layer 1's block, from layer 1's arrays. -/
theorem out10_blk (pT : S2x800000.Idx → EReal) (x0 : Vec Ideal S2x160000 .f32) (x1 : Vec Ideal S2x2 .f32) (x2 : Vec Ideal S2 .f32)
    (x3 x4 : Vec Ideal S3x2 .f32) (x5 : Vec Ideal S2x2 .f32) (x6 : Vec Ideal S2 .f32) (x7 x8 : Vec Ideal S3x2 .f32) (n : ℕ) (hn : n < 5)
    (hx0 : ∀ (r : Fin 2) (e : Fin 160000), x0 (ix2 r e) = pT (ix2 r ⟨n * 160000 + e.val, by omega⟩)) :
    out0_10 x0 x1 x2 x3 x4 x5 x6 x7 x8 = gaussBlk pT x5 x6 x7 x8 n hn := by
  unfold out0_10
  refine canon_rows _ _ _ _ (fun e => ?_) (fun e => ?_) (fun e => ?_)
  · exact (row0_l1 _ _ _ _ _ _ _ _ _ _ _ _ _).trans
      ((weightOf_loads x0 x5 x6 x7 x8 0 ![0, 0] ![0, 1] inb_S3x2_S1x1_0_0 inb_S3x2_S1x1_0_1 rfl rfl rfl rfl e).trans
        (weightOf_blk pT x0 x5 x6 x7 x8 n hn hx0 0 e))
  · exact (row1_l1 _ _ _ _ _ _ _ _ _ _ _ _ _).trans
      ((weightOf_loads x0 x5 x6 x7 x8 1 ![1, 0] ![1, 1] inb_S3x2_S1x1_1_0 inb_S3x2_S1x1_1_1 rfl rfl rfl rfl e).trans
        (weightOf_blk pT x0 x5 x6 x7 x8 n hn hx0 1 e))
  · exact (row2_l1 _ _ _ _ _ _ _ _ _ _ _ _ _).trans
      ((weightOf_loads x0 x5 x6 x7 x8 2 ![2, 0] ![2, 1] inb_S3x2_S1x1_2_0 inb_S3x2_S1x1_2_1 rfl rfl rfl rfl e).trans
        (weightOf_blk pT x0 x5 x6 x7 x8 n hn hx0 2 e))

/-! ## The grid

The printed index maps, decided once over the five points. -/

/-- The pseudo-coordinates' and both results' blocks sit at row block 0, column block `t`. -/
theorem idx_moving : ∀ t : Fin cfg0.N,
    (win0_0.index t (0 : Fin 2) = 0 ∧ win0_0.index t (1 : Fin 2) = t.val)
    ∧ (win0_9.index t (0 : Fin 2) = 0 ∧ win0_9.index t (1 : Fin 2) = t.val)
    ∧ (win0_10.index t (0 : Fin 2) = 0 ∧ win0_10.index t (1 : Fin 2) = t.val) :=
  (by decide +kernel : ∀ t : Fin grid0.N, _)

/-- Every other window's block index is 0 on every axis: its block is its whole array. -/
theorem idx_whole : ∀ t : Fin cfg0.N,
    (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) :=
  (by decide +kernel : ∀ t : Fin grid0.N, _)

/-! ## The input blocks at a point

A block's coordinate on an axis is the block index times the block's size plus the coordinate inside the block. -/

/-- The pseudo-coordinates' block at point `t` is their column block `t`. -/
theorem blk0_apply (c : Dev nD) (t : Fin cfg0.N) (r : Fin 2) (e : Fin 160000) (h : t.val * 160000 + e.val < 800000) :
    iblk0 V c 0 t (ix2 r e) = V c main_v0 (ix2 r ⟨t.val * 160000 + e.val, h⟩) := by
  obtain ⟨⟨i0, i1⟩, -⟩ := idx_moving t
  unfold iblk0
  rw [View.read_apply]
  show V c main_v0 _ = V c main_v0 _
  refine congrArg (V c main_v0) (funext fun a => Fin.ext ?_)
  match a with
  | ⟨0, _⟩ => show win0_0.index t (0 : Fin 2) * 2 + 1 * r.val = r.val; rw [i0]; omega
  | ⟨1, _⟩ => show win0_0.index t (1 : Fin 2) * 160000 + 1 * e.val = t.val * 160000 + e.val; rw [i1]; omega

/-- An index that sits, on every axis, at block index 0 times the size plus the coordinate `y` has inside the block is `y`. -/
theorem idx_of_block_zero {s : Shape} (i y : s.Idx) (ix size : Fin s.rank → ℕ) (hz : ∀ a, ix a = 0)
    (h : ∀ a, (i a).val = ix a * size a + 1 * (y a).val) : i = y :=
  funext fun a => Fin.ext (by rw [h a, hz a]; omega)

/-! Every other input's block is its whole array at every point: layer 0's projection weight, bias, means and inverse
widths (windows 1 to 4), then layer 1's (windows 5 to 8). -/

theorem blk1_eq (c : Dev nD) (t : Fin cfg0.N) : iblk0 V c 1 t = V c main_arg4 := by
  funext y
  unfold iblk0
  rw [View.read_apply]
  show V c main_arg4 _ = V c main_arg4 y
  exact congrArg (V c main_arg4) (idx_of_block_zero _ y (win0_1.index t) S2x2.size (idx_whole t).1 fun _ => rfl)

theorem blk2_eq (c : Dev nD) (t : Fin cfg0.N) : iblk0 V c 2 t = V c main_arg5 := by
  funext y
  unfold iblk0
  rw [View.read_apply]
  show V c main_arg5 _ = V c main_arg5 y
  exact congrArg (V c main_arg5) (idx_of_block_zero _ y (win0_2.index t) S2.size (idx_whole t).2.1 fun _ => rfl)

theorem blk3_eq (c : Dev nD) (t : Fin cfg0.N) : iblk0 V c 3 t = V c main_arg7 := by
  funext y
  unfold iblk0
  rw [View.read_apply]
  show V c main_arg7 _ = V c main_arg7 y
  exact congrArg (V c main_arg7) (idx_of_block_zero _ y (win0_3.index t) S3x2.size (idx_whole t).2.2.1 fun _ => rfl)

theorem blk4_eq (c : Dev nD) (t : Fin cfg0.N) : iblk0 V c 4 t = V c main_arg8 := by
  funext y
  unfold iblk0
  rw [View.read_apply]
  show V c main_arg8 _ = V c main_arg8 y
  exact congrArg (V c main_arg8) (idx_of_block_zero _ y (win0_4.index t) S3x2.size (idx_whole t).2.2.2.1 fun _ => rfl)

theorem blk5_eq (c : Dev nD) (t : Fin cfg0.N) : iblk0 V c 5 t = V c main_arg10 := by
  funext y
  unfold iblk0
  rw [View.read_apply]
  show V c main_arg10 _ = V c main_arg10 y
  exact congrArg (V c main_arg10) (idx_of_block_zero _ y (win0_5.index t) S2x2.size (idx_whole t).2.2.2.2.1 fun _ => rfl)

theorem blk6_eq (c : Dev nD) (t : Fin cfg0.N) : iblk0 V c 6 t = V c main_arg11 := by
  funext y
  unfold iblk0
  rw [View.read_apply]
  show V c main_arg11 _ = V c main_arg11 y
  exact congrArg (V c main_arg11) (idx_of_block_zero _ y (win0_6.index t) S2.size (idx_whole t).2.2.2.2.2.1 fun _ => rfl)

theorem blk7_eq (c : Dev nD) (t : Fin cfg0.N) : iblk0 V c 7 t = V c main_arg13 := by
  funext y
  unfold iblk0
  rw [View.read_apply]
  show V c main_arg13 _ = V c main_arg13 y
  exact congrArg (V c main_arg13) (idx_of_block_zero _ y (win0_7.index t) S3x2.size (idx_whole t).2.2.2.2.2.2.1 fun _ => rfl)

theorem blk8_eq (c : Dev nD) (t : Fin cfg0.N) : iblk0 V c 8 t = V c main_arg14 := by
  funext y
  unfold iblk0
  rw [View.read_apply]
  show V c main_arg14 _ = V c main_arg14 y
  exact congrArg (V c main_arg14) (idx_of_block_zero _ y (win0_8.index t) S3x2.size (idx_whole t).2.2.2.2.2.2.2 fun _ => rfl)

/-! ## What a point writes back, the cover, and the result arrays -/

/-- An index of a `[3, 800000]` array lies, on both axes, in the `[3, 160000]` block at row block 0 and at the column block
    its column falls in: `160000 (e / 160000) ≤ e < 160000 (e / 160000) + 160000`. -/
theorem mem_col_block (i : S3x800000.Idx) (ix : Fin 2 → ℕ) (h0 : ix 0 = 0) (h1 : ix 1 = (i 1).val / 160000) :
    ∀ a : Fin 2, ix a * S3x160000.size a ≤ (i a).val ∧ (i a).val < ix a * S3x160000.size a + S3x160000.size a := by
  have b0 : (i 0).val < 3 := idx2_lt0 i
  intro a
  match a with
  | ⟨0, _⟩ => show ix 0 * 3 ≤ (i 0).val ∧ (i 0).val < ix 0 * 3 + 3; rw [h0]; omega
  | ⟨1, _⟩ => show ix 1 * 160000 ≤ (i 1).val ∧ (i 1).val < ix 1 * 160000 + 160000; rw [h1]; omega

/-- The point whose block holds column `e` of a `[3, 800000]` array: `e / 160000`, one of the five. -/
theorem col_point (i : S3x800000.Idx) : (i 1).val / 160000 < cfg0.N := by
  have b1 : (i 1).val < 800000 := idx2_lt1 i
  rw [show cfg0.N = 5 from N_0]; omega

/-- What point `t` writes back to layer 0's result is block `t` of layer 0's weights of the region-entry arrays. -/
theorem flushed9_eq (c : Dev nD) (t : Fin cfg0.N) :
    (dat0 (F := Ideal) V c).flushed 9 t = ((cfg0.win 9).blk t).view.read (Elt Ideal)
      (Cert.Spec.gauss (V c main_v0) (V c main_arg4) (V c main_arg5) (V c main_arg7) (V c main_arg8)) := by
  have ht : t.val < 5 := Nat.lt_of_lt_of_eq t.isLt N_0
  obtain ⟨-, ⟨i0, i1⟩, -⟩ := idx_moving t
  show (cfg0.win 9).cut (grid0.coords t) ((dat0 V c).after 9 t) = _
  rw [after0_9, out9_blk (V c main_v0) (iblk0 V c 0 t) (iblk0 V c 1 t) (iblk0 V c 2 t) (iblk0 V c 3 t) (iblk0 V c 4 t)
      (iblk0 V c 5 t) (iblk0 V c 6 t) (iblk0 V c 7 t) (iblk0 V c 8 t) t.val ht (fun r e => blk0_apply V c t r e _),
    blk1_eq, blk2_eq, blk3_eq, blk4_eq]
  funext j
  show Cert.Spec.gaussAt (V c main_v0) (V c main_arg4) (V c main_arg5) (V c main_arg7) (V c main_arg8) _ _
    = Cert.Spec.gaussAt (V c main_v0) (V c main_arg4) (V c main_arg5) (V c main_arg7) (V c main_arg8)
        ((((cfg0.win 9).blk t).view.emb j) 0) ((((cfg0.win 9).blk t).view.emb j) 1)
  refine congrArg₂ (Cert.Spec.gaussAt (V c main_v0) (V c main_arg4) (V c main_arg5) (V c main_arg7) (V c main_arg8)) (Fin.ext ?_) (Fin.ext ?_)
  · show (j 0).val = win0_9.index t (0 : Fin 2) * 3 + 1 * (j 0).val
    rw [i0]; omega
  · show t.val * 160000 + (j 1).val = win0_9.index t (1 : Fin 2) * 160000 + 1 * (j 1).val
    rw [i1]; omega

/-- An index of layer 0's result is in point `t`'s block iff each coordinate is in the block's range on its axis. -/
theorem mem_blk9 (t : Fin cfg0.N) (i : S3x800000.Idx) :
    i ∈ ((cfg0.win 9).blk t).view.set ↔ ∀ a : Fin 2, win0_9.index t a * S3x160000.size a ≤ (i a).val
      ∧ (i a).val < win0_9.index t a * S3x160000.size a + S3x160000.size a := by
  show i ∈ ((View.whole main_v1_0).slice (win0_9.rect t)).set ↔ _
  rw [View.set_slice_whole, Rect.mem_set_unit]
  exact Iff.rfl

/-- Every index of layer 0's result is in the block of the point its column falls in. -/
theorem cover9 (i : S3x800000.Idx) :
    ∃ t : Fin cfg0.N, (cfg0.win 9).flush t = true ∧ i ∈ ((cfg0.win 9).blk t).view.set := by
  obtain ⟨-, ⟨i0, i1⟩, -⟩ := idx_moving ⟨(i 1).val / 160000, col_point i⟩
  refine ⟨⟨(i 1).val / 160000, col_point i⟩, flush0_9 _, ?_⟩
  rw [mem_blk9]
  exact mem_col_block i _ i0 i1

/-- What point `t` writes back to layer 1's result is block `t` of layer 1's weights of the region-entry arrays. -/
theorem flushed10_eq (c : Dev nD) (t : Fin cfg0.N) :
    (dat0 (F := Ideal) V c).flushed 10 t = ((cfg0.win 10).blk t).view.read (Elt Ideal)
      (Cert.Spec.gauss (V c main_v0) (V c main_arg10) (V c main_arg11) (V c main_arg13) (V c main_arg14)) := by
  have ht : t.val < 5 := Nat.lt_of_lt_of_eq t.isLt N_0
  obtain ⟨-, -, ⟨i0, i1⟩⟩ := idx_moving t
  show (cfg0.win 10).cut (grid0.coords t) ((dat0 V c).after 10 t) = _
  rw [after0_10, out10_blk (V c main_v0) (iblk0 V c 0 t) (iblk0 V c 1 t) (iblk0 V c 2 t) (iblk0 V c 3 t) (iblk0 V c 4 t)
      (iblk0 V c 5 t) (iblk0 V c 6 t) (iblk0 V c 7 t) (iblk0 V c 8 t) t.val ht (fun r e => blk0_apply V c t r e _),
    blk5_eq, blk6_eq, blk7_eq, blk8_eq]
  funext j
  show Cert.Spec.gaussAt (V c main_v0) (V c main_arg10) (V c main_arg11) (V c main_arg13) (V c main_arg14) _ _
    = Cert.Spec.gaussAt (V c main_v0) (V c main_arg10) (V c main_arg11) (V c main_arg13) (V c main_arg14)
        ((((cfg0.win 10).blk t).view.emb j) 0) ((((cfg0.win 10).blk t).view.emb j) 1)
  refine congrArg₂ (Cert.Spec.gaussAt (V c main_v0) (V c main_arg10) (V c main_arg11) (V c main_arg13) (V c main_arg14)) (Fin.ext ?_) (Fin.ext ?_)
  · show (j 0).val = win0_10.index t (0 : Fin 2) * 3 + 1 * (j 0).val
    rw [i0]; omega
  · show t.val * 160000 + (j 1).val = win0_10.index t (1 : Fin 2) * 160000 + 1 * (j 1).val
    rw [i1]; omega

/-- An index of layer 1's result is in point `t`'s block iff each coordinate is in the block's range on its axis. -/
theorem mem_blk10 (t : Fin cfg0.N) (i : S3x800000.Idx) :
    i ∈ ((cfg0.win 10).blk t).view.set ↔ ∀ a : Fin 2, win0_10.index t a * S3x160000.size a ≤ (i a).val
      ∧ (i a).val < win0_10.index t a * S3x160000.size a + S3x160000.size a := by
  show i ∈ ((View.whole main_v1_1).slice (win0_10.rect t)).set ↔ _
  rw [View.set_slice_whole, Rect.mem_set_unit]
  exact Iff.rfl

/-- Every index of layer 1's result is in the block of the point its column falls in. -/
theorem cover10 (i : S3x800000.Idx) :
    ∃ t : Fin cfg0.N, (cfg0.win 10).flush t = true ∧ i ∈ ((cfg0.win 10).blk t).view.set := by
  obtain ⟨-, -, ⟨i0, i1⟩⟩ := idx_moving ⟨(i 1).val / 160000, col_point i⟩
  refine ⟨⟨(i 1).val / 160000, col_point i⟩, flush0_10 _, ?_⟩
  rw [mem_blk10]
  exact mem_col_block i _ i0 i1

/-- Layer 0's weights after the region: `Spec.gauss` of the region-entry arrays. -/
theorem arr0_9 (c : Dev nD) :
    (dat0 (F := Ideal) V c).arrAt 9 cfg0.N
      = Cert.Spec.gauss (V c main_v0) (V c main_arg4) (V c main_arg5) (V c main_arg7) (V c main_arg8) := by
  exact (dat0 (F := Ideal) V c).arrAt_eq_of_cover 9 _ (fun t _ => flushed9_eq V c t) cover9

/-- Layer 1's weights after the region. -/
theorem arr0_10 (c : Dev nD) :
    (dat0 (F := Ideal) V c).arrAt 10 cfg0.N
      = Cert.Spec.gauss (V c main_v0) (V c main_arg10) (V c main_arg11) (V c main_arg13) (V c main_arg14) := by
  exact (dat0 (F := Ideal) V c).arrAt_eq_of_cover 10 _ (fun t _ => flushed10_eq V c t) cover10

end Cert.KernelIdeal.Value

end
-- ==== Proof.Region1.lean ====
/-
  The second pallas_call, read as a whole: ten grid points, each multiplying a [5000, 128] block of rows by the whole
  transposed [192, 128] weight matrix into the zero accumulator. The result array ends holding `x · wᵀ` of the
  region-entry arrays, index by index.

  * One block product at a row `p` and a column `q` of the block is `Σₖ x (p, k) · w (q, k)`: the product into the zero
    accumulator sums, over the contracted axis, the left operand's row against the transposed weights' column, and the
    transposed weights at `(k, q)` are the weights at `(q, k)`.
  * Point `t`'s row block of either row-blocked array starts at row `5000 t` and spans every column; the weights' block is
    the whole matrix. So row `p` of the left block is row `5000 t + p` of the array, and what the point writes back
    is the rows `5000 t … 5000 t + 4999` of `x · wᵀ`.
  * Row `r` of the result lies in the block of point `r / 5000`: the ten blocks cover the array.
-/
import proofs.«147331_j1211180777632_1_alg».proof.Proof.Gen.KernelIdeal.Frame
import proofs.«147331_j1211180777632_1_alg».proof.Proof.Spec
import proofs.«147331_j1211180777632_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## One block product at a row and a column -/

/-- The origin of a two-axis block, however its two zeros are spelt. -/
theorem origin1 : (![0, 0] : Fin 2 → Nat) = fun _ => 0 := funext fun a => by fin_cases a <;> rfl

/-- The body's product of a row block `x` with the transposed weights `w`, at row `p` and column `q` of the block: the
    sum over the contracted axis of `x (p, k) · w (q, k)`. -/
theorem blockProduct1_apply (x : FVec Ideal S5000x128 .bf16) (w : FVec Ideal S192x128 .bf16) (p : Fin 5000) (q : Fin 192) :
    k1_pay1 (F := Ideal) x w (ix2 p q) = ∑ k : Fin 128, x (ix2 p k) * w (ix2 q k) := by
  unfold k1_pay1
  rw [shapeCast_self, shapeCast_self]
  refine (Cert.RowOps.matmul_plain_apply dot_S5000x128_S128x192_S5000x192_1_0_0_1_n_n rfl none x _ p q).trans ?_
  refine Finset.sum_congr rfl fun k _ => ?_
  rw [transpose_ix2_apply]

/-- The block product against whole arrays: when row `p` of the block `x` is row `R` of the array `X` and row `q` of the
    block `w` is row `C` of the array `W`, the product at `(p, q)` is `X · Wᵀ` at `(R, C)`. -/
theorem blockProduct1_eq_projAt (x : FVec Ideal S5000x128 .bf16) (w : FVec Ideal S192x128 .bf16)
    (X : S50000x128.Idx → EReal) (W : S192x128.Idx → EReal) (p : Fin 5000) (q : Fin 192) (R : Fin 50000) (C : Fin 192)
    (hx : ∀ k : Fin 128, x (ix2 p k) = X (ix2 R k)) (hw : ∀ k : Fin 128, w (ix2 q k) = W (ix2 C k)) :
    k1_pay1 (F := Ideal) x w (ix2 p q) = Cert.Spec.projAt X W R C := by
  rw [blockProduct1_apply]
  exact Finset.sum_congr rfl fun k _ => by rw [hx k, hw k]

/-! ## Where each point's blocks sit -/

/-- The printed index maps over the ten points: the two row-blocked windows sit at block row `t` and block column `0`, the
    weights' window at block `(0, 0)`. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has ten points. -/
theorem points1 : cfg1.N = 10 := by decide +kernel

variable (V : (c : Dev nD) → (b : Ref sig .tc) → Buf (Elt Ideal) ((c : Thread nD τ).loc b))

/-- An element of point `t`'s left block is the array's element `5000 t` rows further down, in the same column. -/
theorem leftBlock1_apply (c : Dev nD) (t : Fin cfg1.N) (y : S5000x128.Idx) (i : S50000x128.Idx)
    (h0 : (i 0).val = t.val * 5000 + (y 0).val) (h1 : (i 1).val = (y 1).val) :
    (iblk1 (F := Ideal) V c 0 t : Vec Ideal S5000x128 .bf16) y = (V c main_v4 : S50000x128.Idx → EReal) i := by
  obtain ⟨e00, e01, -, -, -, -⟩ := blockIndex1 t
  show V c main_v4 (((cfg1.win 0).blk t).view.emb y) = V c main_v4 i
  refine congrArg (V c main_v4) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- An element of point `t`'s block of the weights is the same element of the whole matrix. -/
theorem weightBlock1_apply (c : Dev nD) (t : Fin cfg1.N) (y : S192x128.Idx) (i : S192x128.Idx)
    (h0 : (i 0).val = (y 0).val) (h1 : (i 1).val = (y 1).val) :
    (iblk1 (F := Ideal) V c 1 t : Vec Ideal S192x128 .bf16) y = (V c main_v5 : S192x128.Idx → EReal) i := by
  obtain ⟨-, -, e10, e11, -, -⟩ := blockIndex1 t
  show V c main_v5 (((cfg1.win 1).blk t).view.emb y) = V c main_v5 i
  refine congrArg (V c main_v5) (funext fun a => Fin.ext ?_)
  match a with
  | ⟨0, _⟩ => show win1_1.index t (0 : Fin 2) * 192 + 1 * (y 0).val = (i 0).val; omega
  | ⟨1, _⟩ => show win1_1.index t (1 : Fin 2) * 128 + 1 * (y 1).val = (i 1).val; omega

/-- Where an element of point `t`'s result block sits in the result array: `5000 t` rows further down, same column. -/
theorem outBlock1_emb (t : Fin cfg1.N) (p : Fin 5000) (q : Fin 192) :
    ((((cfg1.win 2).blk t).view.emb (ix2 p q) : S50000x192.Idx) 0).val = t.val * 5000 + p.val
    ∧ ((((cfg1.win 2).blk t).view.emb (ix2 p q) : S50000x192.Idx) 1).val = q.val := by
  obtain ⟨-, -, -, -, e20, e21⟩ := blockIndex1 t
  constructor
  · show win1_2.index t (0 : Fin 2) * 5000 + 1 * p.val = _; omega
  · show win1_2.index t (1 : Fin 2) * 192 + 1 * q.val = _; omega

/-! ## What a point writes back -/

/-- Point `t` writes back block `t` of `x · wᵀ` of the arrays as the region finds them. -/
theorem flushed1_2_eq (c : Dev nD) (t : Fin cfg1.N) :
    (dat1 (F := Ideal) V c).flushed 2 t
      = ((cfg1.win 2).blk t).view.read (Elt Ideal)
          (Cert.Spec.proj (M := 50000) (K := 128) (N := 192) (V c main_v4) (V c main_v5)) := by
  show (cfg1.win 2).cut (grid1.coords t) ((dat1 (F := Ideal) V c).after 2 t) = _
  rw [after1_2]
  unfold out1_2
  rw [View.canon_unit_zero origin1]
  simp only [View.ld_unit_zero (S := S5000x128) origin1, View.ld_unit_zero (S := S192x128) origin1]
  funext j
  obtain ⟨p, q, rfl⟩ : ∃ (p : Fin 5000) (q : Fin 192), j = ix2 p q := ⟨j 0, j 1, eq_ix2 j⟩
  obtain ⟨hr, hc⟩ := outBlock1_emb t p q
  show k1_pay1 (F := Ideal) (iblk1 V c 0 t) (iblk1 V c 1 t) (ix2 p q)
    = Cert.Spec.projAt (V c main_v4) (V c main_v5) ((((cfg1.win 2).blk t).view.emb (ix2 p q) : S50000x192.Idx) 0)
        ((((cfg1.win 2).blk t).view.emb (ix2 p q) : S50000x192.Idx) 1)
  exact blockProduct1_eq_projAt _ _ _ _ p q _ _
    (fun k => leftBlock1_apply V c t (ix2 p k) _ hr rfl)
    (fun k => weightBlock1_apply V c t (ix2 q k) _ hc rfl)

/-! ## The ten blocks cover the array -/

/-- An index of the result array is in point `t`'s block iff each coordinate is in the block's range on its axis. -/
theorem mem_outBlock1 (t : Fin cfg1.N) (i : S50000x192.Idx) :
    i ∈ ((cfg1.win 2).blk t).view.set ↔ ∀ a : Fin 2, win1_2.index t a * S5000x192.size a ≤ (i a).val
      ∧ (i a).val < win1_2.index t a * S5000x192.size a + S5000x192.size a := by
  show i ∈ ((View.whole main_v6).slice (win1_2.rect t)).set ↔ _
  rw [View.set_slice_whole, Rect.mem_set_unit]
  exact Iff.rfl

/-- Row `r` of the result lies in the block of point `r / 5000`. -/
theorem covered1 (i : S50000x192.Idx) :
    ∃ t : Fin cfg1.N, (cfg1.win 2).flush t = true ∧ i ∈ ((cfg1.win 2).blk t).view.set := by
  have hi0 : (i 0).val < 50000 := (i 0).isLt
  have hi1 : (i 1).val < 192 := (i 1).isLt
  have hN : cfg1.N = 10 := points1
  have ht : (i 0).val / 5000 < cfg1.N := by rw [hN]; omega
  obtain ⟨-, -, -, -, e20, e21⟩ := blockIndex1 ⟨(i 0).val / 5000, ht⟩
  refine ⟨⟨(i 0).val / 5000, ht⟩, flush1_2 _, ?_⟩
  rw [mem_outBlock1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, ht⟩ (1 : Fin 2) * 192 ≤ (i 1).val
      ∧ (i 1).val < win1_2.index ⟨(i 0).val / 5000, ht⟩ (1 : Fin 2) * 192 + 192
    rw [e21]
    omega

/-! ## The array after the region -/

/-- The layer-0 projection after the region: `Spec.proj` of the region-entry arrays. -/
theorem arr1_2 (c : Dev nD) :
    (dat1 (F := Ideal) V c).arrAt 2 cfg1.N = Cert.Spec.proj (M := 50000) (K := 128) (N := 192) (V c main_v4) (V c main_v5) :=
  (dat1 (F := Ideal) V c).arrAt_eq_of_cover 2
    (Cert.Spec.proj (M := 50000) (K := 128) (N := 192) (V c main_v4) (V c main_v5))
    (fun t _ => flushed1_2_eq V c t) covered1

end Cert.KernelIdeal.Value

end
-- ==== Proof.Region2.lean ====
/-
  The third pallas_call, read as a whole: ten grid points, each multiplying a [5000, 64] block of rows by the whole
  transposed [120, 64] weight matrix into the zero accumulator. The result array ends holding `x · wᵀ` of the
  region-entry arrays, index by index.

  * One block product at a row `p` and a column `q` of the block is `Σₖ x (p, k) · w (q, k)`: the product into the zero
    accumulator sums, over the contracted axis, the left operand's row against the transposed weights' column, and the
    transposed weights at `(k, q)` are the weights at `(q, k)`.
  * Point `t`'s row block of either row-blocked array starts at row `5000 t` and spans every column; the weights' block is
    the whole matrix. So row `p` of the left block is row `5000 t + p` of the array, and what the point writes back
    is the rows `5000 t … 5000 t + 4999` of `x · wᵀ`.
  * Row `r` of the result lies in the block of point `r / 5000`: the ten blocks cover the array.
-/
import proofs.«147331_j1211180777632_1_alg».proof.Proof.Gen.KernelIdeal.Frame
import proofs.«147331_j1211180777632_1_alg».proof.Proof.Spec
import proofs.«147331_j1211180777632_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## One block product at a row and a column -/

/-- The origin of a two-axis block, however its two zeros are spelt. -/
theorem origin2 : (![0, 0] : Fin 2 → Nat) = fun _ => 0 := funext fun a => by fin_cases a <;> rfl

/-- The body's product of a row block `x` with the transposed weights `w`, at row `p` and column `q` of the block: the
    sum over the contracted axis of `x (p, k) · w (q, k)`. -/
theorem blockProduct2_apply (x : FVec Ideal S5000x64 .bf16) (w : FVec Ideal S120x64 .bf16) (p : Fin 5000) (q : Fin 120) :
    k2_pay1 (F := Ideal) x w (ix2 p q) = ∑ k : Fin 64, x (ix2 p k) * w (ix2 q k) := by
  unfold k2_pay1
  rw [shapeCast_self, shapeCast_self]
  refine (Cert.RowOps.matmul_plain_apply dot_S5000x64_S64x120_S5000x120_1_0_0_1_n_n rfl none x _ p q).trans ?_
  refine Finset.sum_congr rfl fun k _ => ?_
  rw [transpose_ix2_apply]

/-- The block product against whole arrays: when row `p` of the block `x` is row `R` of the array `X` and row `q` of the
    block `w` is row `C` of the array `W`, the product at `(p, q)` is `X · Wᵀ` at `(R, C)`. -/
theorem blockProduct2_eq_projAt (x : FVec Ideal S5000x64 .bf16) (w : FVec Ideal S120x64 .bf16)
    (X : S50000x64.Idx → EReal) (W : S120x64.Idx → EReal) (p : Fin 5000) (q : Fin 120) (R : Fin 50000) (C : Fin 120)
    (hx : ∀ k : Fin 64, x (ix2 p k) = X (ix2 R k)) (hw : ∀ k : Fin 64, w (ix2 q k) = W (ix2 C k)) :
    k2_pay1 (F := Ideal) x w (ix2 p q) = Cert.Spec.projAt X W R C := by
  rw [blockProduct2_apply]
  exact Finset.sum_congr rfl fun k _ => by rw [hx k, hw k]

/-! ## Where each point's blocks sit -/

/-- The printed index maps over the ten points: the two row-blocked windows sit at block row `t` and block column `0`, the
    weights' window at block `(0, 0)`. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has ten points. -/
theorem points2 : cfg2.N = 10 := by decide +kernel

variable (V : (c : Dev nD) → (b : Ref sig .tc) → Buf (Elt Ideal) ((c : Thread nD τ).loc b))

/-- An element of point `t`'s left block is the array's element `5000 t` rows further down, in the same column. -/
theorem leftBlock2_apply (c : Dev nD) (t : Fin cfg2.N) (y : S5000x64.Idx) (i : S50000x64.Idx)
    (h0 : (i 0).val = t.val * 5000 + (y 0).val) (h1 : (i 1).val = (y 1).val) :
    (iblk2 (F := Ideal) V c 0 t : Vec Ideal S5000x64 .bf16) y = (V c main_v25 : S50000x64.Idx → EReal) i := by
  obtain ⟨e00, e01, -, -, -, -⟩ := blockIndex2 t
  show V c main_v25 (((cfg2.win 0).blk t).view.emb y) = V c main_v25 i
  refine congrArg (V c main_v25) (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- An element of point `t`'s block of the weights is the same element of the whole matrix. -/
theorem weightBlock2_apply (c : Dev nD) (t : Fin cfg2.N) (y : S120x64.Idx) (i : S120x64.Idx)
    (h0 : (i 0).val = (y 0).val) (h1 : (i 1).val = (y 1).val) :
    (iblk2 (F := Ideal) V c 1 t : Vec Ideal S120x64 .bf16) y = (V c main_v26 : S120x64.Idx → EReal) i := by
  obtain ⟨-, -, e10, e11, -, -⟩ := blockIndex2 t
  show V c main_v26 (((cfg2.win 1).blk t).view.emb y) = V c main_v26 i
  refine congrArg (V c main_v26) (funext fun a => Fin.ext ?_)
  match a with
  | ⟨0, _⟩ => show win2_1.index t (0 : Fin 2) * 120 + 1 * (y 0).val = (i 0).val; omega
  | ⟨1, _⟩ => show win2_1.index t (1 : Fin 2) * 64 + 1 * (y 1).val = (i 1).val; omega

/-- Where an element of point `t`'s result block sits in the result array: `5000 t` rows further down, same column. -/
theorem outBlock2_emb (t : Fin cfg2.N) (p : Fin 5000) (q : Fin 120) :
    ((((cfg2.win 2).blk t).view.emb (ix2 p q) : S50000x120.Idx) 0).val = t.val * 5000 + p.val
    ∧ ((((cfg2.win 2).blk t).view.emb (ix2 p q) : S50000x120.Idx) 1).val = q.val := by
  obtain ⟨-, -, -, -, e20, e21⟩ := blockIndex2 t
  constructor
  · show win2_2.index t (0 : Fin 2) * 5000 + 1 * p.val = _; omega
  · show win2_2.index t (1 : Fin 2) * 120 + 1 * q.val = _; omega

/-! ## What a point writes back -/

/-- Point `t` writes back block `t` of `x · wᵀ` of the arrays as the region finds them. -/
theorem flushed2_2_eq (c : Dev nD) (t : Fin cfg2.N) :
    (dat2 (F := Ideal) V c).flushed 2 t
      = ((cfg2.win 2).blk t).view.read (Elt Ideal)
          (Cert.Spec.proj (M := 50000) (K := 64) (N := 120) (V c main_v25) (V c main_v26)) := by
  show (cfg2.win 2).cut (grid2.coords t) ((dat2 (F := Ideal) V c).after 2 t) = _
  rw [after2_2]
  unfold out2_2
  rw [View.canon_unit_zero origin2]
  simp only [View.ld_unit_zero (S := S5000x64) origin2, View.ld_unit_zero (S := S120x64) origin2]
  funext j
  obtain ⟨p, q, rfl⟩ : ∃ (p : Fin 5000) (q : Fin 120), j = ix2 p q := ⟨j 0, j 1, eq_ix2 j⟩
  obtain ⟨hr, hc⟩ := outBlock2_emb t p q
  show k2_pay1 (F := Ideal) (iblk2 V c 0 t) (iblk2 V c 1 t) (ix2 p q)
    = Cert.Spec.projAt (V c main_v25) (V c main_v26) ((((cfg2.win 2).blk t).view.emb (ix2 p q) : S50000x120.Idx) 0)
        ((((cfg2.win 2).blk t).view.emb (ix2 p q) : S50000x120.Idx) 1)
  exact blockProduct2_eq_projAt _ _ _ _ p q _ _
    (fun k => leftBlock2_apply V c t (ix2 p k) _ hr rfl)
    (fun k => weightBlock2_apply V c t (ix2 q k) _ hc rfl)

/-! ## The ten blocks cover the array -/

/-- An index of the result array is in point `t`'s block iff each coordinate is in the block's range on its axis. -/
theorem mem_outBlock2 (t : Fin cfg2.N) (i : S50000x120.Idx) :
    i ∈ ((cfg2.win 2).blk t).view.set ↔ ∀ a : Fin 2, win2_2.index t a * S5000x120.size a ≤ (i a).val
      ∧ (i a).val < win2_2.index t a * S5000x120.size a + S5000x120.size a := by
  show i ∈ ((View.whole main_v27).slice (win2_2.rect t)).set ↔ _
  rw [View.set_slice_whole, Rect.mem_set_unit]
  exact Iff.rfl

/-- Row `r` of the result lies in the block of point `r / 5000`. -/
theorem covered2 (i : S50000x120.Idx) :
    ∃ t : Fin cfg2.N, (cfg2.win 2).flush t = true ∧ i ∈ ((cfg2.win 2).blk t).view.set := by
  have hi0 : (i 0).val < 50000 := (i 0).isLt
  have hi1 : (i 1).val < 120 := (i 1).isLt
  have hN : cfg2.N = 10 := points2
  have ht : (i 0).val / 5000 < cfg2.N := by rw [hN]; omega
  obtain ⟨-, -, -, -, e20, e21⟩ := blockIndex2 ⟨(i 0).val / 5000, ht⟩
  refine ⟨⟨(i 0).val / 5000, ht⟩, flush2_2 _, ?_⟩
  rw [mem_outBlock2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win2_2.index ⟨(i 0).val / 5000, ht⟩ (1 : Fin 2) * 120 ≤ (i 1).val
      ∧ (i 1).val < win2_2.index ⟨(i 0).val / 5000, ht⟩ (1 : Fin 2) * 120 + 120
    rw [e21]
    omega

/-! ## The array after the region -/

/-- The layer-1 projection after the region: `Spec.proj` of the region-entry arrays. -/
theorem arr2_2 (c : Dev nD) :
    (dat2 (F := Ideal) V c).arrAt 2 cfg2.N = Cert.Spec.proj (M := 50000) (K := 64) (N := 120) (V c main_v25) (V c main_v26) :=
  (dat2 (F := Ideal) V c).arrAt_eq_of_cover 2
    (Cert.Spec.proj (M := 50000) (K := 64) (N := 120) (V c main_v25) (V c main_v26))
    (fun t _ => flushed2_2_eq V c t) covered2

end Cert.KernelIdeal.Value

end
-- ==== Proof.Layer.lean ====
/-
  One message-passing layer as a function of whole arrays: from the projected node features `hp : [N, K·C]`, the
  mixture weights, the source and destination node of every edge and the bias, to the layer's output `[N, C]`.

  Both programs gather row `src[e]` of the projection (negative entries wrapped by the number of nodes) for every
  edge `e`, multiply entry `(e, k, c)` by the weight of component `k` on edge `e`, and add the bias. They differ in
  one place: the kernel's host code sums over the components `k` first and then adds each edge's row into its
  destination node's row; the reference adds each edge's `[K, C]` slab into its destination node's slab and sums
  over `k` afterwards.
-/
import proofs.«147331_j1211180777632_1_alg».proof.KernelIdeal
import proofs.«147331_j1211180777632_1_alg».proof.ReferenceIdeal

noncomputable section

namespace Cert.Layer

open Idealize.ShloMosaic

variable {F : FTy → Type} [FloatOps F]

/-! ## The kernel's order: sum over the components, then scatter by destination -/

section KernelOrder

open Cert.KernelIdeal Cert.KernelIdeal.Facts₀

variable [Cert.KernelIdeal.Facts₀]

/-- The source node of every edge as a column of start indices, a negative entry wrapped by the number of nodes. -/
def kSrcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Layer 0 (`C = 64`) in the kernel's order, the weights laid out `[E, K]`. -/
def kLayer64 (hp : (⟨S50000x192, .f32⟩ : BufTy).Contents (Elt F)) (w : (⟨S800000x3, .f32⟩ : BufTy).Contents (Elt F))
    (src dst : (⟨S800000, .i32⟩ : BufTy).Contents (Elt F)) (b : (⟨S64, .f32⟩ : BufTy).Contents (Elt F)) :
    (⟨S50000x64, .f32⟩ : BufTy).Contents (Elt F) :=
  addf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.reduceAdd
        (mulf
          (broadcastInDim S800000x3x64 ![0, 1, 2] bcast_S800000x3x1_S800000x3x64_0_1_2
            (broadcastInDim S800000x3x1 ![0, 1] bcast_S800000x3_S800000x3x1_0_1 w))
          (Host.gather gather_S50000x3x64_S800000x1_S800000x3x64_12_0_n_n_0_1_1364
            (shapeCast _ hp shapeCasts_S50000x192_S50000x3x64) (kSrcCol src)))
        (constant S_ .f32 0x00000000#32) reducesTo_S800000x3x64_S800000x64_d1 h_S_))
    (broadcastInDim S50000x64 ![0, 1] bcast_S1x64_S50000x64_0_1 (broadcastInDim S1x64 ![1] bcast_S64_S1x64_1 b))

/-- Layer 1 (`C = 40`) in the kernel's order, the weights laid out `[E, K]`. -/
def kLayer40 (hp : (⟨S50000x120, .f32⟩ : BufTy).Contents (Elt F)) (w : (⟨S800000x3, .f32⟩ : BufTy).Contents (Elt F))
    (src dst : (⟨S800000, .i32⟩ : BufTy).Contents (Elt F)) (b : (⟨S40, .f32⟩ : BufTy).Contents (Elt F)) :
    (⟨S50000x40, .f32⟩ : BufTy).Contents (Elt F) :=
  addf
    (Host.scatterAdd scatter_S50000x40_S800000x1_S800000x40_1_0_0_1
      (broadcastInDim S50000x40 ![] bcast_S_S50000x40 (constant S_ .f32 0x00000000#32))
      (broadcastInDim S800000x1 ![0] bcast_S800000_S800000x1_0 dst)
      (Host.reduceAdd
        (mulf
          (broadcastInDim S800000x3x40 ![0, 1, 2] bcast_S800000x3x1_S800000x3x40_0_1_2
            (broadcastInDim S800000x3x1 ![0, 1] bcast_S800000x3_S800000x3x1_0_1 w))
          (Host.gather gather_S50000x3x40_S800000x1_S800000x3x40_12_0_n_n_0_1_1340
            (shapeCast _ hp shapeCasts_S50000x120_S50000x3x40) (kSrcCol src)))
        (constant S_ .f32 0x00000000#32) reducesTo_S800000x3x40_S800000x40_d1 h_S_))
    (broadcastInDim S50000x40 ![0, 1] bcast_S1x40_S50000x40_0_1 (broadcastInDim S1x40 ![1] bcast_S40_S1x40_1 b))

end KernelOrder

/-! ## The reference's order: scatter by destination, then sum over the components -/

section ReferenceOrder

open Cert.ReferenceIdeal Cert.ReferenceIdeal.Facts₀

variable [Cert.ReferenceIdeal.Facts₀]

/-- The source node of every edge as a column of start indices, a negative entry wrapped by the number of nodes. -/
def rSrcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Layer 0 (`C = 64`) in the reference's order, the weights laid out `[E, K]`. -/
def rLayer64 (hp : (⟨S50000x192, .f32⟩ : BufTy).Contents (Elt F)) (w : (⟨S800000x3, .f32⟩ : BufTy).Contents (Elt F))
    (src dst : (⟨S800000, .i32⟩ : BufTy).Contents (Elt F)) (b : (⟨S64, .f32⟩ : BufTy).Contents (Elt F)) :
    (⟨S50000x64, .f32⟩ : BufTy).Contents (Elt F) :=
  addf
    (Host.reduceAdd
      (Host.scatterAdd scatter_S50000x3x64_S800000x1_S800000x3x64_12_0_0_1
        (broadcastInDim S50000x3x64 ![] bcast_S_S50000x3x64 (constant S_ .f32 0x00000000#32))
        (broadcastInDim S800000x1 ![0] bcast_S800000_S800000x1_0 dst)
        (mulf
          (broadcastInDim S800000x3x64 ![0, 1, 2] bcast_S800000x3x1_S800000x3x64_0_1_2
            (broadcastInDim S800000x3x1 ![0, 1] bcast_S800000x3_S800000x3x1_0_1 w))
          (Host.gather gather_S50000x3x64_S800000x1_S800000x3x64_12_0_n_n_0_1_1364
            (shapeCast _ hp shapeCasts_S50000x192_S50000x3x64) (rSrcCol src))))
      (constant S_ .f32 0x00000000#32) reducesTo_S50000x3x64_S50000x64_d1 h_S_)
    (broadcastInDim S50000x64 ![0, 1] bcast_S1x64_S50000x64_0_1 (broadcastInDim S1x64 ![1] bcast_S64_S1x64_1 b))

/-- Layer 1 (`C = 40`) in the reference's order, the weights laid out `[E, K]`. -/
def rLayer40 (hp : (⟨S50000x120, .f32⟩ : BufTy).Contents (Elt F)) (w : (⟨S800000x3, .f32⟩ : BufTy).Contents (Elt F))
    (src dst : (⟨S800000, .i32⟩ : BufTy).Contents (Elt F)) (b : (⟨S40, .f32⟩ : BufTy).Contents (Elt F)) :
    (⟨S50000x40, .f32⟩ : BufTy).Contents (Elt F) :=
  addf
    (Host.reduceAdd
      (Host.scatterAdd scatter_S50000x3x40_S800000x1_S800000x3x40_12_0_0_1
        (broadcastInDim S50000x3x40 ![] bcast_S_S50000x3x40 (constant S_ .f32 0x00000000#32))
        (broadcastInDim S800000x1 ![0] bcast_S800000_S800000x1_0 dst)
        (mulf
          (broadcastInDim S800000x3x40 ![0, 1, 2] bcast_S800000x3x1_S800000x3x40_0_1_2
            (broadcastInDim S800000x3x1 ![0, 1] bcast_S800000x3_S800000x3x1_0_1 w))
          (Host.gather gather_S50000x3x40_S800000x1_S800000x3x40_12_0_n_n_0_1_1340
            (shapeCast _ hp shapeCasts_S50000x120_S50000x3x40) (rSrcCol src))))
      (constant S_ .f32 0x00000000#32) reducesTo_S50000x3x40_S50000x40_d1 h_S_)
    (broadcastInDim S50000x40 ![0, 1] bcast_S1x40_S50000x40_0_1 (broadcastInDim S1x40 ![1] bcast_S40_S1x40_1 b))

end ReferenceOrder

end Cert.Layer

end
-- ==== Proof.KernelValue.lean ====
/-
  The kernel program's result as two layers over the shared specification.

  @main is four stretches of host operations around three pallas_calls. Reading the result buffer back through
  them: the last stretch is layer 1's gather / weight / sum over components / scatter-add / bias chain
  (`Layer.kLayer40`) over the third call's output and the second weight array; the third call's output is the
  projection `Spec.proj` of layer 0's output (the stretch before it: `Layer.kLayer64` over the second call's output
  and the first weight array) with the second weight matrix; the second call's output is the projection of the
  node features with the first weight matrix; and the two weight arrays are the transposed outputs of the first
  call, `Spec.gauss` of the transposed pseudo-coordinates. A conversion to the narrower float format is the
  identity on the extended reals, and a buffer that no operation of a stretch writes, and that is no window of a
  call, keeps its contents across it.
-/
import proofs.«147331_j1211180777632_1_alg».proof.Proof.KernelRun
import proofs.«147331_j1211180777632_1_alg».proof.Proof.Region0
import proofs.«147331_j1211180777632_1_alg».proof.Proof.Region1
import proofs.«147331_j1211180777632_1_alg».proof.Proof.Region2
import proofs.«147331_j1211180777632_1_alg».proof.Proof.Spec
import proofs.«147331_j1211180777632_1_alg».proof.Proof.Layer
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Buffers that keep their contents -/

/-- No operation of the stretch writes the buffer: decided operation by operation. -/
local macro "no_write" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- Narrowing a float format is the identity on the extended reals. -/
theorem truncf_ideal {s : Shape} {φ ψ : FTy} (x : FVec Ideal s φ) (h : ψ.bits < φ.bits) : truncf ψ x h = x := rfl

/-- The buffer holds its launch contents at each call's exit. -/
def Kept (b : Ref sig .tc) : Prop :=
  W2 m ρ c (Proc.devRef .tc b) = m ((c : Thread nD τ).loc b)
  ∧ W4 m ρ c (Proc.devRef .tc b) = m ((c : Thread nD τ).loc b)
  ∧ W6 m ρ c (Proc.devRef .tc b) = m ((c : Thread nD τ).loc b)

/-- A buffer no host operation writes and no call stages through a window holds its launch contents at every
    boundary up to the last call's exit. -/
theorem kept (b : Ref sig .tc)
    (h0 : ∀ op ∈ (hostOps0 : List (HloOp τ sig (Elt Ideal))), Proc.devRef (τ := τ) .tc b ∉ op.writes)
    (h1 : ∀ op ∈ (hostOps1 : List (HloOp τ sig (Elt Ideal))), Proc.devRef (τ := τ) .tc b ∉ op.writes)
    (h2 : ∀ op ∈ (hostOps2 : List (HloOp τ sig (Elt Ideal))), Proc.devRef (τ := τ) .tc b ∉ op.writes)
    (r0 : ∀ w, Pipeline.arrRef spec0 w ≠ b) (r1 : ∀ w, Pipeline.arrRef spec1 w ≠ b) (r2 : ∀ w, Pipeline.arrRef spec2 w ≠ b) :
    Kept m ρ c b := by
  have e1 : W1 m ρ c (Proc.devRef .tc b) = m ((c : Thread nD τ).loc b) := StableHlo.after_of_forall_not_mem _ _ h0
  have e2 : W2 m ρ c (Proc.devRef .tc b) = m ((c : Thread nD τ).loc b) := (W2_of_ne m ρ c b r0).trans e1
  have e3 : W3 m ρ c (Proc.devRef .tc b) = m ((c : Thread nD τ).loc b) := (StableHlo.after_of_forall_not_mem _ _ h1).trans e2
  have e4 : W4 m ρ c (Proc.devRef .tc b) = m ((c : Thread nD τ).loc b) := (W4_of_ne m ρ c b r1).trans e3
  have e5 : W5 m ρ c (Proc.devRef .tc b) = m ((c : Thread nD τ).loc b) := (StableHlo.after_of_forall_not_mem _ _ h2).trans e4
  exact ⟨e2, e4, (W6_of_ne m ρ c b r2).trans e5⟩

/-- A buffer the first stretch does not write holds its launch contents at the first call's entry. -/
theorem kept1 (b : Ref sig .tc)
    (h0 : ∀ op ∈ (hostOps0 : List (HloOp τ sig (Elt Ideal))), Proc.devRef (τ := τ) .tc b ∉ op.writes) :
    V1 m ρ c b = m ((c : Thread nD τ).loc b) := StableHlo.after_of_forall_not_mem _ _ h0

theorem arg0 : Kept m ρ c main_arg0 := kept m ρ c main_arg0 (by no_write) (by no_write) (by no_write) (by decide) (by decide) (by decide)
theorem arg2 : Kept m ρ c main_arg2 := kept m ρ c main_arg2 (by no_write) (by no_write) (by no_write) (by decide) (by decide) (by decide)
theorem arg3 : Kept m ρ c main_arg3 := kept m ρ c main_arg3 (by no_write) (by no_write) (by no_write) (by decide) (by decide) (by decide)
theorem arg6 : Kept m ρ c main_arg6 := kept m ρ c main_arg6 (by no_write) (by no_write) (by no_write) (by decide) (by decide) (by decide)
theorem arg9 : Kept m ρ c main_arg9 := kept m ρ c main_arg9 (by no_write) (by no_write) (by no_write) (by decide) (by decide) (by decide)
theorem arg12 : Kept m ρ c main_arg12 := kept m ρ c main_arg12 (by no_write) (by no_write) (by no_write) (by decide) (by decide) (by decide)
theorem arg15 : Kept m ρ c main_arg15 := kept m ρ c main_arg15 (by no_write) (by no_write) (by no_write) (by decide) (by decide) (by decide)

/-! ## The first call and the stretch before it: the two weight arrays -/

/-- The pseudo-coordinates reach the first call transposed to channel-major. -/
theorem pseudoT : V1 m ρ c main_v0 = transpose S2x800000 [1, 0] (m ((c : Thread nD τ).loc main_arg1)) Facts₀.transposes_S800000x2_S2x800000_1_0 := by
  show W1 m ρ c (Proc.devRef .tc main_v0) = _
  unfold W1
  after_results_simp

/-- Layer 0's weights after the first call, laid out `[K, E]`. -/
theorem weights0T : W2 m ρ c (Proc.devRef .tc main_v1_0)
    = Cert.Spec.gauss (transpose S2x800000 [1, 0] (m ((c : Thread nD τ).loc main_arg1)) Facts₀.transposes_S800000x2_S2x800000_1_0) (m ((c : Thread nD τ).loc main_arg4)) (m ((c : Thread nD τ).loc main_arg5)) (m ((c : Thread nD τ).loc main_arg7)) (m ((c : Thread nD τ).loc main_arg8)) := by
  refine (W2_arr m ρ c 9).trans ?_
  rw [arr0_9 (V1 m ρ) c, pseudoT m ρ c, kept1 m ρ c main_arg4 (by no_write), kept1 m ρ c main_arg5 (by no_write),
    kept1 m ρ c main_arg7 (by no_write), kept1 m ρ c main_arg8 (by no_write)]

/-- Layer 1's weights after the first call, laid out `[K, E]`. -/
theorem weights1T : W2 m ρ c (Proc.devRef .tc main_v1_1)
    = Cert.Spec.gauss (transpose S2x800000 [1, 0] (m ((c : Thread nD τ).loc main_arg1)) Facts₀.transposes_S800000x2_S2x800000_1_0) (m ((c : Thread nD τ).loc main_arg10)) (m ((c : Thread nD τ).loc main_arg11)) (m ((c : Thread nD τ).loc main_arg13)) (m ((c : Thread nD τ).loc main_arg14)) := by
  refine (W2_arr m ρ c 10).trans ?_
  rw [arr0_10 (V1 m ρ) c, pseudoT m ρ c, kept1 m ρ c main_arg10 (by no_write), kept1 m ρ c main_arg11 (by no_write),
    kept1 m ρ c main_arg13 (by no_write), kept1 m ρ c main_arg14 (by no_write)]

/-! ## The second stretch and the second call: layer 0's projection -/

/-- The second stretch transposes layer 0's weights to `[E, K]`. -/
theorem weights0 : W3 m ρ c (Proc.devRef .tc main_v2)
    = transpose S800000x3 [1, 0] (W2 m ρ c (Proc.devRef .tc main_v1_0)) Facts₀.transposes_S3x800000_S800000x3_1_0 := by
  unfold W3
  after_results_simp

/-- … and layer 1's. -/
theorem weights1 : W3 m ρ c (Proc.devRef .tc main_v3)
    = transpose S800000x3 [1, 0] (W2 m ρ c (Proc.devRef .tc main_v1_1)) Facts₀.transposes_S3x800000_S800000x3_1_0 := by
  unfold W3
  after_results_simp

/-- The node features reach the second call unchanged (the narrowing is the identity). -/
theorem feat_in : V3 m ρ c main_v4 = (m ((c : Thread nD τ).loc main_arg0)) := by
  show W3 m ρ c (Proc.devRef .tc main_v4) = _
  unfold W3
  after_results_simp
  exact (truncf_ideal (φ := .f32) (ψ := .bf16) _ _).trans (arg0 m ρ c).1

/-- … and so does the first weight matrix. -/
theorem fc0_in : V3 m ρ c main_v5 = (m ((c : Thread nD τ).loc main_arg6)) := by
  show W3 m ρ c (Proc.devRef .tc main_v5) = _
  unfold W3
  after_results_simp
  exact (truncf_ideal (φ := .f32) (ψ := .bf16) _ _).trans (arg6 m ρ c).1

/-- Layer 0's projection after the second call. -/
theorem proj0 : W4 m ρ c (Proc.devRef .tc main_v6) = Cert.Spec.proj (M := 50000) (K := 128) (N := 192) (m ((c : Thread nD τ).loc main_arg0)) (m ((c : Thread nD τ).loc main_arg6)) := by
  refine (W4_arr m ρ c 2).trans ?_
  rw [arr1_2 (V3 m ρ) c, feat_in m ρ c, fc0_in m ρ c]

/-! ## The third stretch and the third call: layer 0's output and layer 1's projection -/

/-- Layer 0's output reaches the third call unchanged (the narrowing is the identity). -/
theorem hidden_in : V5 m ρ c main_v25
    = Cert.Layer.kLayer64 (F := Ideal) (W4 m ρ c (Proc.devRef .tc main_v6)) (W4 m ρ c (Proc.devRef .tc main_v2))
        (W4 m ρ c (Proc.devRef .tc main_arg2)) (W4 m ρ c (Proc.devRef .tc main_arg3)) (W4 m ρ c (Proc.devRef .tc main_arg9)) := by
  show W5 m ρ c (Proc.devRef .tc main_v25) = _
  unfold W5
  after_results_simp
  exact truncf_ideal (φ := .f32) (ψ := .bf16) _ _

/-- The second weight matrix reaches the third call unchanged. -/
theorem fc1_in : V5 m ρ c main_v26 = (m ((c : Thread nD τ).loc main_arg12)) := by
  show W5 m ρ c (Proc.devRef .tc main_v26) = _
  unfold W5
  after_results_simp
  exact (truncf_ideal (φ := .f32) (ψ := .bf16) _ _).trans (arg12 m ρ c).2.1

/-- Layer 0's weights at the third stretch: what the second stretch left (no call and no later operation writes them). -/
theorem weights0_at4 : W4 m ρ c (Proc.devRef .tc main_v2) = W3 m ρ c (Proc.devRef .tc main_v2) :=
  W4_of_ne m ρ c main_v2 (by decide)

/-- Layer 1's weights at the last stretch: what the second stretch left. -/
theorem weights1_at6 : W6 m ρ c (Proc.devRef .tc main_v3) = W3 m ρ c (Proc.devRef .tc main_v3) :=
  (W6_of_ne m ρ c main_v3 (by decide)).trans
    ((StableHlo.after_of_forall_not_mem _ _ (by no_write)).trans (W4_of_ne m ρ c main_v3 (by decide)))

/-- Layer 0's output. -/
theorem hidden : V5 m ρ c main_v25
    = Cert.Layer.kLayer64 (F := Ideal) (Cert.Spec.proj (M := 50000) (K := 128) (N := 192) (m ((c : Thread nD τ).loc main_arg0)) (m ((c : Thread nD τ).loc main_arg6)))
        (transpose S800000x3 [1, 0]
            (Cert.Spec.gauss (transpose S2x800000 [1, 0] (m ((c : Thread nD τ).loc main_arg1)) Facts₀.transposes_S800000x2_S2x800000_1_0)
              (m ((c : Thread nD τ).loc main_arg4)) (m ((c : Thread nD τ).loc main_arg5)) (m ((c : Thread nD τ).loc main_arg7)) (m ((c : Thread nD τ).loc main_arg8)))
            Facts₀.transposes_S3x800000_S800000x3_1_0)
        (m ((c : Thread nD τ).loc main_arg2)) (m ((c : Thread nD τ).loc main_arg3)) (m ((c : Thread nD τ).loc main_arg9)) := by
  rw [hidden_in m ρ c, proj0 m ρ c, weights0_at4 m ρ c, weights0 m ρ c, weights0T m ρ c, (arg2 m ρ c).2.1, (arg3 m ρ c).2.1,
    (arg9 m ρ c).2.1]

/-- Layer 1's projection after the third call. -/
theorem proj1 : W6 m ρ c (Proc.devRef .tc main_v27)
    = Cert.Spec.proj (M := 50000) (K := 64) (N := 120) (V5 m ρ c main_v25) (m ((c : Thread nD τ).loc main_arg12)) := by
  refine (W6_arr m ρ c 2).trans ?_
  rw [arr2_2 (V5 m ρ) c, fc1_in m ρ c]

/-! ## The last stretch: the result -/

/-- The result buffer after the last stretch is layer 1 over what the last call's exit holds. -/
theorem result_in : W7 m ρ c (Proc.devRef .tc main_v45)
    = Cert.Layer.kLayer40 (F := Ideal) (W6 m ρ c (Proc.devRef .tc main_v27)) (W6 m ρ c (Proc.devRef .tc main_v3))
        (W6 m ρ c (Proc.devRef .tc main_arg2)) (W6 m ρ c (Proc.devRef .tc main_arg3)) (W6 m ρ c (Proc.devRef .tc main_arg15)) := by
  unfold W7
  after_results_simp
  rfl

/-- THE KERNEL'S RESULT as a function of the launch contents of the sixteen arguments. -/
theorem kernel_result : W7 m ρ c (Proc.devRef .tc main_v45)
    = Cert.Layer.kLayer40 (F := Ideal)
        (Cert.Spec.proj (M := 50000) (K := 64) (N := 120)
          (Cert.Layer.kLayer64 (F := Ideal) (Cert.Spec.proj (M := 50000) (K := 128) (N := 192) (m ((c : Thread nD τ).loc main_arg0)) (m ((c : Thread nD τ).loc main_arg6)))
            (transpose S800000x3 [1, 0]
            (Cert.Spec.gauss (transpose S2x800000 [1, 0] (m ((c : Thread nD τ).loc main_arg1)) Facts₀.transposes_S800000x2_S2x800000_1_0)
              (m ((c : Thread nD τ).loc main_arg4)) (m ((c : Thread nD τ).loc main_arg5)) (m ((c : Thread nD τ).loc main_arg7)) (m ((c : Thread nD τ).loc main_arg8)))
            Facts₀.transposes_S3x800000_S800000x3_1_0)
            (m ((c : Thread nD τ).loc main_arg2)) (m ((c : Thread nD τ).loc main_arg3)) (m ((c : Thread nD τ).loc main_arg9)))
          (m ((c : Thread nD τ).loc main_arg12)))
        (transpose S800000x3 [1, 0]
            (Cert.Spec.gauss (transpose S2x800000 [1, 0] (m ((c : Thread nD τ).loc main_arg1)) Facts₀.transposes_S800000x2_S2x800000_1_0)
              (m ((c : Thread nD τ).loc main_arg10)) (m ((c : Thread nD τ).loc main_arg11)) (m ((c : Thread nD τ).loc main_arg13)) (m ((c : Thread nD τ).loc main_arg14)))
            Facts₀.transposes_S3x800000_S800000x3_1_0)
        (m ((c : Thread nD τ).loc main_arg2)) (m ((c : Thread nD τ).loc main_arg3)) (m ((c : Thread nD τ).loc main_arg15)) := by
  rw [result_in m ρ c, proj1 m ρ c, hidden m ρ c, weights1_at6 m ρ c, weights1 m ρ c, weights1T m ρ c, (arg2 m ρ c).2.2,
    (arg3 m ρ c).2.2, (arg15 m ρ c).2.2]

end Cert.KernelIdeal.Value

end
-- ==== Proof.RefValue.lean ====
/-
  The reference's result as two layers over the shared specification.

  The reference computes each layer's mixture weights on the host — a [E, 2] × [2, 2] product, the bias, tanh, the
  offsets from the three means scaled by the inverse widths, their squares summed over the two coordinates, times
  -1/2, exp — and each layer's projection as a product with the transposed weight matrix. Index by index these
  are the transposed `Spec.gauss` of the channel-major pseudo-coordinates and `Spec.proj`: products commute and a sum
  over two coordinates is its two terms. The rest of each layer is `Layer.rLayer64` / `rLayer40` by definition.
-/
import proofs.«147331_j1211180777632_1_alg».proof.Proof.Gen.ReferenceIdeal.Run
import proofs.«147331_j1211180777632_1_alg».proof.Proof.Gen.ReferenceIdeal.Read
import proofs.«147331_j1211180777632_1_alg».proof.Proof.Spec
import proofs.«147331_j1211180777632_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read
open scoped BigOperators

variable [Cert.KernelIdeal.Facts₀]

/-! ## The two projections -/

/-- Layer 0's projection: the product with the transposed weight matrix, read at `(r, c)`, is the sum over the
    contracted axis of `x[r, k] · w[c, k]`. -/
theorem proj64 (x0 : (⟨S50000x128, .f32⟩ : BufTy).Contents (Elt Ideal)) (x6 : (⟨S192x128, .f32⟩ : BufTy).Contents (Elt Ideal)) :
    val_main_v7 (F := Ideal) x0 x6 = Cert.Spec.proj (M := 50000) (K := 128) (N := 192) x0 x6 := by
  funext i
  obtain ⟨r, c, rfl⟩ : ∃ (r : Fin 50000) (c : Fin 192), i = ix2 r c := ⟨i 0, i 1, eq_ix2 i⟩
  rw [val_main_v7_apply]
  show _ = ∑ k : Fin 128, x0 (ix2 r k) * x6 (ix2 c k)
  refine Finset.sum_congr rfl fun k _ => ?_
  rw [val_main_v6_apply]
  have el : lidx_main_v7 (ix2 r c) k = ix2 r k :=
    funext fun a => Fin.ext (by match a with | ⟨0, _⟩ => rfl | ⟨1, _⟩ => rfl)
  have er : idx_main_v6 (ridx_main_v7 (ix2 r c) k) = ix2 c k :=
    funext fun a => Fin.ext (by match a with | ⟨0, _⟩ => rfl | ⟨1, _⟩ => rfl)
  rw [el, er]

/-- The `[50000, 64] × [64, 120]` product read at an index, for ANY left operand: the sum over the contracted axis.
    (Layer 1 projects layer 0's output, whatever it is.) -/
theorem dot120_apply (h : (⟨S50000x64, .f32⟩ : BufTy).Contents (Elt Ideal)) (y : (⟨S64x120, .f32⟩ : BufTy).Contents (Elt Ideal))
    (i : S50000x120.Idx) :
    Host.dotGeneral (F := Ideal) (φ₁ := .f32) (φ₂ := .f32) dot_S50000x64_S64x120_S50000x120_1_0_0_1_n_n none h y i
      = ∑ k : Fin 64, h (lidx_main_v46 i k) * y (ridx_main_v46 i k) := by
  simp only [Host.dotGeneral]
  rw [Ideal.dotGeneral_apply, ← Equiv.sum_comp (ValueIdx.contrEquiv1 dot_S50000x64_S64x120_S50000x120_1_0_0_1_n_n 64 rfl rfl).symm]
  refine Finset.sum_congr rfl fun k _ => ?_
  have hk := ValueIdx.contrEquiv1_symm_val dot_S50000x64_S64x120_S50000x120_1_0_0_1_n_n 64 rfl rfl k
  have el : dot_S50000x64_S64x120_S50000x120_1_0_0_1_n_n.lhsIdx i ((ValueIdx.contrEquiv1 dot_S50000x64_S64x120_S50000x120_1_0_0_1_n_n 64 rfl rfl).symm k) = lidx_main_v46 i k := funext fun a => Fin.ext (by
    match a with
    | ⟨0, _⟩ => exact lhs_main_v46_0 _ _
    | ⟨1, _⟩ => exact (lhs_main_v46_1 _ _).trans hk)
  have er : dot_S50000x64_S64x120_S50000x120_1_0_0_1_n_n.rhsIdx i ((ValueIdx.contrEquiv1 dot_S50000x64_S64x120_S50000x120_1_0_0_1_n_n 64 rfl rfl).symm k) = ridx_main_v46 i k := funext fun a => Fin.ext (by
    match a with
    | ⟨0, _⟩ => exact (rhs_main_v46_0 _ _).trans hk
    | ⟨1, _⟩ => exact rhs_main_v46_1 _ _)
  rw [el, er]

/-- Layer 1's projection of any `[50000, 64]` array `h`: `h · wᵀ`. -/
theorem proj120 (h : (⟨S50000x64, .f32⟩ : BufTy).Contents (Elt Ideal)) (x12 : (⟨S120x64, .f32⟩ : BufTy).Contents (Elt Ideal)) :
    Host.dotGeneral (F := Ideal) (φ₁ := .f32) (φ₂ := .f32) dot_S50000x64_S64x120_S50000x120_1_0_0_1_n_n none h (val_main_v45 (F := Ideal) x12)
      = Cert.Spec.proj (M := 50000) (K := 64) (N := 120) h x12 := by
  funext i
  obtain ⟨r, c, rfl⟩ : ∃ (r : Fin 50000) (c : Fin 120), i = ix2 r c := ⟨i 0, i 1, eq_ix2 i⟩
  rw [dot120_apply]
  show _ = ∑ k : Fin 64, h (ix2 r k) * x12 (ix2 c k)
  refine Finset.sum_congr rfl fun k _ => ?_
  rw [val_main_v45_apply]
  have el : lidx_main_v46 (ix2 r c) k = ix2 r k :=
    funext fun a => Fin.ext (by match a with | ⟨0, _⟩ => rfl | ⟨1, _⟩ => rfl)
  have er : idx_main_v45 (ridx_main_v46 (ix2 r c) k) = ix2 c k :=
    funext fun a => Fin.ext (by match a with | ⟨0, _⟩ => rfl | ⟨1, _⟩ => rfl)
  rw [el, er]

/-! ## The mixture weights

  The reference lays the pseudo-coordinates out `[E, 2]`, the specification channel-major `[2, E]`: `pT` below is any
  array with `pT[c, e] = x1[e, c]`. Read index by index, the reference's chain is the specification's: the `[E, 2] × [2, 2]`
  product is its two terms, with the factors of each product in the other order. -/

/-- Edge `e`'s projected pseudo-coordinate `j`. -/
theorem coord_eq (x1 : (⟨S800000x2, .f32⟩ : BufTy).Contents (Elt Ideal)) (x4 : (⟨S2x2, .f32⟩ : BufTy).Contents (Elt Ideal))
    (x5 : (⟨S2, .f32⟩ : BufTy).Contents (Elt Ideal)) (pT : Cert.KernelIdeal.S2x800000.Idx → EReal)
    (hp : ∀ (c : Fin 2) (e : Fin 800000), pT (ix2 c e) = x1 (ix2 e c)) (e : Fin 800000) (j : Fin 2) :
    val_main_v5 (F := Ideal) x1 x4 x5 (ix2 e j) = Cert.Spec.coord pT x4 x5 j e := by
  rw [val_main_v5_apply, val_main_v4_apply, val_main_v1_apply, val_main_v3_apply, val_main_v2_apply, Fin.sum_univ_two,
    val_main_v0_apply, val_main_v0_apply]
  have a0 : lidx_main_v1 (ix2 e j) (0 : Fin 2) = ix2 e (0 : Fin 2) :=
    funext fun a => Fin.ext (by match a with | ⟨0, _⟩ => rfl | ⟨1, _⟩ => rfl)
  have a1 : lidx_main_v1 (ix2 e j) (1 : Fin 2) = ix2 e (1 : Fin 2) :=
    funext fun a => Fin.ext (by match a with | ⟨0, _⟩ => rfl | ⟨1, _⟩ => rfl)
  have w0 : idx_main_v0 (ridx_main_v1 (ix2 e j) (0 : Fin 2)) = ix2 j (0 : Fin 2) :=
    funext fun a => Fin.ext (by match a with | ⟨0, _⟩ => rfl | ⟨1, _⟩ => rfl)
  have w1 : idx_main_v0 (ridx_main_v1 (ix2 e j) (1 : Fin 2)) = ix2 j (1 : Fin 2) :=
    funext fun a => Fin.ext (by match a with | ⟨0, _⟩ => rfl | ⟨1, _⟩ => rfl)
  have b : idx_main_v2 (idx_main_v3 (ix2 e j)) = ix1 j :=
    funext fun a => Fin.ext (by match a with | ⟨0, _⟩ => rfl)
  rw [a0, a1, w0, w1, b, Ideal.hostUnary_tanh_def, Ideal.addf_def,
    mul_comm (x1 (ix2 e (0 : Fin 2))) (x4 (ix2 j (0 : Fin 2))), mul_comm (x1 (ix2 e (1 : Fin 2))) (x4 (ix2 j (1 : Fin 2)))]
  unfold Cert.Spec.coord
  rw [hp, hp]

/-- The scaled offset of coordinate `j` from component `k`'s mean, on edge `e`. -/
theorem offs_eq (x1 : (⟨S800000x2, .f32⟩ : BufTy).Contents (Elt Ideal)) (x4 : (⟨S2x2, .f32⟩ : BufTy).Contents (Elt Ideal))
    (x5 : (⟨S2, .f32⟩ : BufTy).Contents (Elt Ideal)) (x7 x8 : (⟨S3x2, .f32⟩ : BufTy).Contents (Elt Ideal))
    (pT : Cert.KernelIdeal.S2x800000.Idx → EReal) (hp : ∀ (c : Fin 2) (e : Fin 800000), pT (ix2 c e) = x1 (ix2 e c))
    (e : Fin 800000) (k : Fin 3) (j : Fin 2) :
    val_main_v16 (F := Ideal) x1 x4 x5 x7 x8 (ix3 e k j) = Cert.Spec.offs pT x4 x5 x7 x8 k j e := by
  rw [val_main_v16_apply, val_main_v13_apply, val_main_v15_apply, val_main_v14_apply, val_main_v11_apply, val_main_v12_apply,
    val_main_v9_apply, val_main_v10_apply]
  have c : idx_main_v9 (idx_main_v11 (ix3 e k j)) = ix2 e j :=
    funext fun a => Fin.ext (by match a with | ⟨0, _⟩ => rfl | ⟨1, _⟩ => rfl)
  have m : idx_main_v10 (idx_main_v12 (ix3 e k j)) = ix2 k j :=
    funext fun a => Fin.ext (by match a with | ⟨0, _⟩ => rfl | ⟨1, _⟩ => rfl)
  have s : idx_main_v14 (idx_main_v15 (ix3 e k j)) = ix2 k j :=
    funext fun a => Fin.ext (by match a with | ⟨0, _⟩ => rfl | ⟨1, _⟩ => rfl)
  rw [c, m, s, coord_eq x1 x4 x5 pT hp, Ideal.mulf_def, Ideal.subf_def]
  rfl

/-- Layer 0's weights: component `k`'s weight on edge `e`, laid out `[E, K]`. The sum over the two coordinates is its
    two terms, from a zero initial value. -/
theorem gauss0 (x1 : (⟨S800000x2, .f32⟩ : BufTy).Contents (Elt Ideal)) (x4 : (⟨S2x2, .f32⟩ : BufTy).Contents (Elt Ideal))
    (x5 : (⟨S2, .f32⟩ : BufTy).Contents (Elt Ideal)) (x7 x8 : (⟨S3x2, .f32⟩ : BufTy).Contents (Elt Ideal)) :
    val_main_v21 (F := Ideal) x1 x4 x5 x7 x8
      = transpose Cert.KernelIdeal.S800000x3 [1, 0]
          (Cert.Spec.gauss (transpose Cert.KernelIdeal.S2x800000 [1, 0] x1 Cert.KernelIdeal.Facts₀.transposes_S800000x2_S2x800000_1_0) x4 x5 x7 x8)
          Cert.KernelIdeal.Facts₀.transposes_S3x800000_S800000x3_1_0 := by
  funext i
  obtain ⟨e, k, rfl⟩ : ∃ (e : Fin 800000) (k : Fin 3), i = ix2 e k := ⟨i 0, i 1, eq_ix2 i⟩
  have hp : ∀ (c : Fin 2) (e : Fin 800000),
      transpose Cert.KernelIdeal.S2x800000 [1, 0] x1 Cert.KernelIdeal.Facts₀.transposes_S800000x2_S2x800000_1_0 (ix2 c e) = x1 (ix2 e c) :=
    fun c e => transpose_ix2_apply x1 _ c e
  refine Eq.trans ?_ (transpose_ix2_apply _ _ e k).symm
  show _ = Cert.Spec.gaussAt _ x4 x5 x7 x8 k e
  rw [val_main_v21_apply, val_main_v20_apply, val_main_v19_apply, val_main_cst_0_apply, val_main_v18_apply, val_main_cst_apply,
    Fin.sum_univ_two, val_main_v17_apply, val_main_v17_apply]
  have i0 : idx_main_v18 (ix2 e k) (0 : Fin 2) = ix3 e k (0 : Fin 2) :=
    funext fun a => Fin.ext (by match a with | ⟨0, _⟩ => rfl | ⟨1, _⟩ => rfl | ⟨2, _⟩ => rfl)
  have i1 : idx_main_v18 (ix2 e k) (1 : Fin 2) = ix3 e k (1 : Fin 2) :=
    funext fun a => Fin.ext (by match a with | ⟨0, _⟩ => rfl | ⟨1, _⟩ => rfl | ⟨2, _⟩ => rfl)
  rw [i0, i1, offs_eq x1 x4 x5 x7 x8 _ hp, offs_eq x1 x4 x5 x7 x8 _ hp, Ideal.hostUnary_exp_def, Ideal.mulf_def, Ideal.mulf_def,
    Ideal.mulf_def, Ideal.ofBits_def, Ideal.ofBits_def, Ideal.ofBits_zero_f32, zero_add]
  rfl

/-- Layer 1's weight chain is the same composition of operations as layer 0's, applied to layer 1's parameters. -/
theorem weights1_eq (x1 : (⟨S800000x2, .f32⟩ : BufTy).Contents (Elt Ideal)) (x10 : (⟨S2x2, .f32⟩ : BufTy).Contents (Elt Ideal))
    (x11 : (⟨S2, .f32⟩ : BufTy).Contents (Elt Ideal)) (x13 x14 : (⟨S3x2, .f32⟩ : BufTy).Contents (Elt Ideal)) :
    val_main_v60 (F := Ideal) x1 x10 x11 x13 x14 = val_main_v21 (F := Ideal) x1 x10 x11 x13 x14 := by
  unfold val_main_v60 val_main_v59 val_main_v58 val_main_cst_5 val_main_v57 val_main_cst_4 val_main_v56 val_main_v55 val_main_v54
    val_main_v53 val_main_v52 val_main_v51 val_main_v49 val_main_v50 val_main_v48 val_main_v44 val_main_v43 val_main_v42 val_main_v41
    val_main_v40 val_main_v39
    val_main_v21 val_main_v20 val_main_v19 val_main_cst_0 val_main_v18 val_main_cst val_main_v17 val_main_v16 val_main_v15
    val_main_v14 val_main_v13 val_main_v12 val_main_v10 val_main_v11 val_main_v9 val_main_v5 val_main_v4 val_main_v3 val_main_v2
    val_main_v1 val_main_v0
  rfl

/-- Layer 1's weights, laid out `[E, K]`. -/
theorem gauss1 (x1 : (⟨S800000x2, .f32⟩ : BufTy).Contents (Elt Ideal)) (x10 : (⟨S2x2, .f32⟩ : BufTy).Contents (Elt Ideal))
    (x11 : (⟨S2, .f32⟩ : BufTy).Contents (Elt Ideal)) (x13 x14 : (⟨S3x2, .f32⟩ : BufTy).Contents (Elt Ideal)) :
    val_main_v60 (F := Ideal) x1 x10 x11 x13 x14
      = transpose Cert.KernelIdeal.S800000x3 [1, 0]
          (Cert.Spec.gauss (transpose Cert.KernelIdeal.S2x800000 [1, 0] x1 Cert.KernelIdeal.Facts₀.transposes_S800000x2_S2x800000_1_0) x10 x11 x13 x14)
          Cert.KernelIdeal.Facts₀.transposes_S3x800000_S800000x3_1_0 :=
  (weights1_eq x1 x10 x11 x13 x14).trans (gauss0 x1 x10 x11 x13 x14)

/-! ## The two layers -/

/-- Layer 0: from the projection and the weights on, the reference's operations are `rLayer64`'s, one for one. -/
theorem layer0 (x0 : (⟨S50000x128, .f32⟩ : BufTy).Contents (Elt Ideal)) (x1 : (⟨S800000x2, .f32⟩ : BufTy).Contents (Elt Ideal))
    (x2 x3 : (⟨S800000, .i32⟩ : BufTy).Contents (Elt Ideal)) (x4 : (⟨S2x2, .f32⟩ : BufTy).Contents (Elt Ideal))
    (x5 : (⟨S2, .f32⟩ : BufTy).Contents (Elt Ideal)) (x6 : (⟨S192x128, .f32⟩ : BufTy).Contents (Elt Ideal))
    (x7 x8 : (⟨S3x2, .f32⟩ : BufTy).Contents (Elt Ideal)) (x9 : (⟨S64, .f32⟩ : BufTy).Contents (Elt Ideal)) :
    val_main_v38 (F := Ideal) x0 x1 x2 x3 x4 x5 x6 x7 x8 x9
      = Cert.Layer.rLayer64 (F := Ideal) (val_main_v7 (F := Ideal) x0 x6) (val_main_v21 (F := Ideal) x1 x4 x5 x7 x8) x2 x3 x9 := by
  unfold val_main_v38 val_main_v37 val_main_v36 val_main_v35 val_main_cst_3 val_main_v34 val_main_v33 val_main_v32 val_main_cst_2
    val_main_v31 val_main_v30 val_main_v22 val_main_v29 val_main_v28 val_main_v27 val_main_v26 val_main_v25 val_main_c_1 val_main_v24
    val_main_v23 val_main_c val_main_v8 Cert.Layer.rLayer64 Cert.Layer.rSrcCol
  rfl

/-- The reference's result, as a function of the sixteen arguments: layer 1 over the projection of layer 0's
    output, each layer's weights the transposed `Spec.gauss` of the channel-major pseudo-coordinates. -/
theorem ref_result (x0 : (⟨S50000x128, .f32⟩ : BufTy).Contents (Elt Ideal)) (x1 : (⟨S800000x2, .f32⟩ : BufTy).Contents (Elt Ideal))
    (x2 x3 : (⟨S800000, .i32⟩ : BufTy).Contents (Elt Ideal)) (x4 : (⟨S2x2, .f32⟩ : BufTy).Contents (Elt Ideal))
    (x5 : (⟨S2, .f32⟩ : BufTy).Contents (Elt Ideal)) (x6 : (⟨S192x128, .f32⟩ : BufTy).Contents (Elt Ideal))
    (x7 x8 : (⟨S3x2, .f32⟩ : BufTy).Contents (Elt Ideal)) (x9 : (⟨S64, .f32⟩ : BufTy).Contents (Elt Ideal))
    (x10 : (⟨S2x2, .f32⟩ : BufTy).Contents (Elt Ideal)) (x11 : (⟨S2, .f32⟩ : BufTy).Contents (Elt Ideal))
    (x12 : (⟨S120x64, .f32⟩ : BufTy).Contents (Elt Ideal)) (x13 x14 : (⟨S3x2, .f32⟩ : BufTy).Contents (Elt Ideal))
    (x15 : (⟨S40, .f32⟩ : BufTy).Contents (Elt Ideal)) :
    val_main_v77 (F := Ideal) x0 x1 x2 x3 x4 x5 x6 x7 x8 x9 x10 x11 x12 x13 x14 x15
      = Cert.Layer.rLayer40 (F := Ideal)
          (Cert.Spec.proj (M := 50000) (K := 64) (N := 120)
            (Cert.Layer.rLayer64 (F := Ideal) (Cert.Spec.proj (M := 50000) (K := 128) (N := 192) x0 x6)
              (transpose Cert.KernelIdeal.S800000x3 [1, 0]
            (Cert.Spec.gauss (transpose Cert.KernelIdeal.S2x800000 [1, 0] x1 Cert.KernelIdeal.Facts₀.transposes_S800000x2_S2x800000_1_0) x4 x5 x7 x8)
            Cert.KernelIdeal.Facts₀.transposes_S3x800000_S800000x3_1_0) x2 x3 x9)
            x12)
          (transpose Cert.KernelIdeal.S800000x3 [1, 0]
            (Cert.Spec.gauss (transpose Cert.KernelIdeal.S2x800000 [1, 0] x1 Cert.KernelIdeal.Facts₀.transposes_S800000x2_S2x800000_1_0) x10 x11 x13 x14)
            Cert.KernelIdeal.Facts₀.transposes_S3x800000_S800000x3_1_0) x2 x3 x15 := by
  unfold val_main_v77 val_main_v76 val_main_v75 val_main_v74 val_main_cst_9 val_main_v73 val_main_v72 val_main_v71 val_main_cst_8
    val_main_v70 val_main_v69 val_main_v61 val_main_v68 val_main_v67 val_main_v66 val_main_v65 val_main_v64 val_main_c_7 val_main_v63
    val_main_v62 val_main_c_6 val_main_v47 val_main_v46
  rw [gauss1, proj120, layer0, proj64, gauss0]
  unfold Cert.Layer.rLayer40 Cert.Layer.rSrcCol
  rfl

end Cert.ReferenceIdeal.RefValue

end
-- ==== Proof.SegmentSum.lean ====
/-
  Summing over the mixture components before or after the scatter by destination node gives the same layer.

  At the extended reals a scatter-add is, at each operand entry, the operand plus the SUM of the updates that land
  there, and a reduction is the initial value plus the SUM of the entries that drop to the result index. So both
  orders are, at node `n` and channel `c`, the sum of `w[e, k] · hp[src e, k, c]` over all pairs `(e, k)` with
  `dst e = n`: a finite sum regrouped, which needs only that addition is commutative and associative.
-/
import proofs.«147331_j1211180777632_1_alg».proof.Proof.Layer
import Idealize.ShloMosaic.PureOps.Ideal.Laws
import Idealize.ShloMosaic.Lib.ValueIdx

noncomputable section

namespace Cert.Layer

open Idealize.ShloMosaic Idealize.ShloMosaic.ValueIdx
open scoped BigOperators

/-! ## Regrouping a finite sum along a map

Two laws of finite sums in a commutative monoid. In both, every term `U a` is counted once on each side; the sides
differ only in how the terms are grouped. -/

section Regroup

variable {α β γ δ M : Type*} [Fintype α] [DecidableEq α] [AddCommMonoid M]

/-- Group the terms by their image `p a`, and keep the groups whose label `b` lands on `g` (`r b = some g`): that is
    the sum of the terms whose image lands on `g`. The groups are the fibres of `p`, which are pairwise disjoint, and
    the union of the kept ones is `{a | r (p a) = some g}`. -/
theorem sum_fibers_then_landing [Fintype β] [DecidableEq β] [DecidableEq γ]
    (p : α → β) (r : β → Option γ) (g : γ) (U : α → M) :
    ∑ b ∈ Finset.univ.filter (fun b => r b = some g), ∑ a ∈ Finset.univ.filter (fun a => p a = b), U a
      = ∑ a ∈ Finset.univ.filter (fun a => r (p a) = some g), U a := by
  rw [← Finset.sum_biUnion]
  · refine Finset.sum_congr ?_ fun _ _ => rfl
    ext a
    simp only [Finset.mem_biUnion, Finset.mem_filter, Finset.mem_univ, true_and]
    constructor
    · rintro ⟨b, hb, rfl⟩; exact hb
    · intro h; exact ⟨p a, h, rfl⟩
  · intro b _ b' _ hne
    rw [Function.onFun, Finset.disjoint_left]
    intro a ha ha'
    simp only [Finset.mem_filter, Finset.mem_univ, true_and] at ha ha'
    exact hne (ha.symm.trans ha')

/-- Group the terms by where they land (`r a = some d`), and keep the groups whose label `d` has image `g` under
    `q`: that is the sum of the terms that land somewhere whose image is `g`. A term lands in at most one place, so
    the groups are pairwise disjoint, and the union of the kept ones is `{a | (r a).map q = some g}`. -/
theorem sum_landing_then_fibers [Fintype δ] [DecidableEq δ] [DecidableEq γ]
    (r : α → Option δ) (q : δ → γ) (g : γ) (U : α → M) :
    ∑ d ∈ Finset.univ.filter (fun d => q d = g), ∑ a ∈ Finset.univ.filter (fun a => r a = some d), U a
      = ∑ a ∈ Finset.univ.filter (fun a => (r a).map q = some g), U a := by
  rw [← Finset.sum_biUnion]
  · refine Finset.sum_congr ?_ fun _ _ => rfl
    ext a
    simp only [Finset.mem_biUnion, Finset.mem_filter, Finset.mem_univ, true_and, Option.map_eq_some_iff]
    constructor
    · rintro ⟨d, hd, ha⟩; exact ⟨d, ha, hd⟩
    · rintro ⟨d, ha, hd⟩; exact ⟨d, hd, ha⟩
  · intro d _ d' _ hne
    rw [Function.onFun, Finset.disjoint_left]
    intro a ha ha'
    simp only [Finset.mem_filter, Finset.mem_univ, true_and] at ha ha'
    exact hne (Option.some.inj (ha.symm.trans ha'))

end Regroup

/-! ## Where an update lands: rows `[E, C] → [N, C]` against slabs `[E, K, C] → [N, K, C]`

Both scatters read ONE start index per edge `e`, the entry `(e, 0)` of the `[E, 1]` index array, for operand axis 0,
and start at `0` on every other axis; the window coordinate is `0` on axis 0 and the update's own coordinate on the
others. So row entry `(e, c)` lands on `(start e, c)` and slab entry `(e, k, c)` on `(start e, k, c)`, each exactly
when `0 ≤ start e < N` (the coordinates `k < K` and `c < C` are always inside). Dropping axis 1 therefore commutes
with landing. Nothing here depends on the extents `N`, `E`, `K`, `C`. -/

section Landing

variable {N E K C w : Nat}

/-- The scatter of `[E, C]` rows into `[N, C]` by one start index per row. -/
abbrev rowScatter (w2 : ScatterDims.WF (⟨2, ![N, C]⟩ : Shape) ⟨2, ![E, 1]⟩ ⟨2, ![E, C]⟩ [1] [0] [0] 1) :
    ScatterDims (⟨2, ![N, C]⟩ : Shape) ⟨2, ![E, 1]⟩ ⟨2, ![E, C]⟩ := ⟨[1], [0], [0], 1, w2⟩

/-- The scatter of `[E, K, C]` slabs into `[N, K, C]` by one start index per slab. -/
abbrev slabScatter (w3 : ScatterDims.WF (⟨3, ![N, K, C]⟩ : Shape) ⟨2, ![E, 1]⟩ ⟨3, ![E, K, C]⟩ [1, 2] [0] [0] 1) :
    ScatterDims (⟨3, ![N, K, C]⟩ : Shape) ⟨2, ![E, 1]⟩ ⟨3, ![E, K, C]⟩ := ⟨[1, 2], [0], [0], 1, w3⟩

variable (w2 : ScatterDims.WF (⟨2, ![N, C]⟩ : Shape) ⟨2, ![E, 1]⟩ ⟨2, ![E, C]⟩ [1] [0] [0] 1)
  (w3 : ScatterDims.WF (⟨3, ![N, K, C]⟩ : Shape) ⟨2, ![E, 1]⟩ ⟨3, ![E, K, C]⟩ [1, 2] [0] [0] 1)
  (hk : Shape.ReducesTo (⟨3, ![E, K, C]⟩ : Shape) [1] ⟨2, ![E, C]⟩)
  (hr : Shape.ReducesTo (⟨3, ![N, K, C]⟩ : Shape) [1] ⟨2, ![N, C]⟩)
  (idx : IVec (⟨2, ![E, 1]⟩ : Shape) w)

/-- On operand axis 0 the row `(e, c)` and the slab entry `(e, k, c)` read the same start index: entry `(e, 0)` of
    the index array, since dropping axis 1 keeps the edge coordinate. -/
theorem start_row_zero (a : (⟨3, ![E, K, C]⟩ : Shape).Idx) (h h' : 0 < _) :
    (rowScatter w2).start (hk.drop a) idx ⟨0, h⟩ = (slabScatter w3).start a idx ⟨0, h'⟩ := by
  unfold ScatterDims.start
  have m2 : (⟨0, h⟩ : Fin _) ∈ (rowScatter w2).scatterDimsToOperandDims := List.mem_singleton.2 rfl
  have m3 : (⟨0, h'⟩ : Fin _) ∈ (slabScatter w3).scatterDimsToOperandDims := List.mem_singleton.2 rfl
  rw [dif_pos m2, dif_pos m3]
  congr 2
  funext b
  match b with
  | ⟨0, _⟩ => rfl
  | ⟨1, _⟩ => rfl

/-! The other starts are `0` (the index map names axis 0 only); the window coordinate is `0` on the inserted axis 0
    and the update's coordinate on each window axis. -/

theorem start_row_one (j : (⟨2, ![E, C]⟩ : Shape).Idx) (h : 1 < _) : (rowScatter w2).start j idx ⟨1, h⟩ = 0 := rfl
theorem start_slab_one (a : (⟨3, ![E, K, C]⟩ : Shape).Idx) (h : 1 < _) : (slabScatter w3).start a idx ⟨1, h⟩ = 0 := rfl
theorem start_slab_two (a : (⟨3, ![E, K, C]⟩ : Shape).Idx) (h : 2 < _) : (slabScatter w3).start a idx ⟨2, h⟩ = 0 := rfl
theorem window_row_zero (j : (⟨2, ![E, C]⟩ : Shape).Idx) (h : 0 < _) : (rowScatter w2).window j ⟨0, h⟩ = 0 := rfl
theorem window_row_one (j : (⟨2, ![E, C]⟩ : Shape).Idx) (h : 1 < _) : (rowScatter w2).window j ⟨1, h⟩ = (j 1).val := rfl
theorem window_slab_zero (a : (⟨3, ![E, K, C]⟩ : Shape).Idx) (h : 0 < _) : (slabScatter w3).window a ⟨0, h⟩ = 0 := rfl
theorem window_slab_one (a : (⟨3, ![E, K, C]⟩ : Shape).Idx) (h : 1 < _) : (slabScatter w3).window a ⟨1, h⟩ = (a 1).val := rfl
theorem window_slab_two (a : (⟨3, ![E, K, C]⟩ : Shape).Idx) (h : 2 < _) : (slabScatter w3).window a ⟨2, h⟩ = (a 2).val := rfl
/-- Dropping axis 1 of `(e, k, c)` leaves `c` on axis 1. -/
theorem drop_one (a : (⟨3, ![E, K, C]⟩ : Shape).Idx) : (hk.drop a 1).val = (a 2).val := rfl

/-- Landing commutes with dropping axis 1: the row `(e, c)` lands where the slab entry `(e, k, c)` lands with its
    axis 1 dropped, and is dropped exactly when the slab entry is. The slab entry is inside the operand on all three
    axes iff the row is on its two, because on axis 1 the slab's landing coordinate is `0 + k` with `k < K`. -/
theorem landing_compat (a : (⟨3, ![E, K, C]⟩ : Shape).Idx) :
    (rowScatter w2).resultIdx? (hk.drop a) idx = ((slabScatter w3).resultIdx? a idx).map hr.drop := by
  unfold ScatterDims.resultIdx?
  by_cases h3 : ∀ a', 0 ≤ (slabScatter w3).start a idx a' + (slabScatter w3).window a a' ∧
      (slabScatter w3).start a idx a' + (slabScatter w3).window a a' < (⟨3, ![N, K, C]⟩ : Shape).size a'
  · -- the slab entry lands inside: so does the row, on the same node and channel
    have h2 : ∀ b, 0 ≤ (rowScatter w2).start (hk.drop a) idx b + (rowScatter w2).window (hk.drop a) b ∧
        (rowScatter w2).start (hk.drop a) idx b + (rowScatter w2).window (hk.drop a) b
          < (⟨2, ![N, C]⟩ : Shape).size b := by
      intro b
      match b with
      | ⟨0, hb⟩ =>
        have := h3 ⟨0, Nat.succ_pos _⟩
        rw [window_slab_zero] at this
        rw [start_row_zero w2 w3 hk idx a hb (Nat.succ_pos _), window_row_zero]
        exact this
      | ⟨1, hb⟩ =>
        have := h3 ⟨2, Nat.lt_succ_self _⟩
        rw [start_slab_two, window_slab_two] at this
        rw [start_row_one, window_row_one, drop_one]
        exact this
    rw [dif_pos h2, dif_pos h3, Option.map_some]
    congr 1
    funext b
    apply Fin.ext
    match b with
    | ⟨0, hb⟩ =>
      show ((rowScatter w2).start (hk.drop a) idx ⟨0, hb⟩ + (rowScatter w2).window (hk.drop a) ⟨0, hb⟩).toNat
        = ((slabScatter w3).start a idx ⟨0, Nat.succ_pos _⟩ + (slabScatter w3).window a ⟨0, Nat.succ_pos _⟩).toNat
      rw [start_row_zero w2 w3 hk idx a hb (Nat.succ_pos _), window_row_zero, window_slab_zero]
    | ⟨1, hb⟩ =>
      show ((rowScatter w2).start (hk.drop a) idx ⟨1, hb⟩ + (rowScatter w2).window (hk.drop a) ⟨1, hb⟩).toNat
        = ((slabScatter w3).start a idx ⟨2, Nat.lt_succ_self _⟩
            + (slabScatter w3).window a ⟨2, Nat.lt_succ_self _⟩).toNat
      rw [start_row_one, window_row_one, drop_one, start_slab_two, window_slab_two]
  · -- the slab entry is dropped: axis 1 is always inside, so axis 0 or 2 is outside, and the row is dropped too
    have h2 : ¬ ∀ b, 0 ≤ (rowScatter w2).start (hk.drop a) idx b + (rowScatter w2).window (hk.drop a) b ∧
        (rowScatter w2).start (hk.drop a) idx b + (rowScatter w2).window (hk.drop a) b
          < (⟨2, ![N, C]⟩ : Shape).size b := by
      intro h2
      apply h3
      intro a'
      match a' with
      | ⟨0, ha⟩ =>
        have := h2 ⟨0, Nat.succ_pos _⟩
        rw [start_row_zero w2 w3 hk idx a _ ha, window_row_zero] at this
        rw [window_slab_zero]
        exact this
      | ⟨1, ha⟩ =>
        rw [start_slab_one, window_slab_one]
        have hlt : (a 1).val < K := (a 1).isLt
        exact ⟨by omega, by show (0 : Int) + ((a 1).val : Int) < (K : Int); omega⟩
      | ⟨2, ha⟩ =>
        have := h2 ⟨1, Nat.lt_succ_self _⟩
        rw [start_row_one, window_row_one, drop_one] at this
        rw [start_slab_two, window_slab_two]
        exact this
    rw [dif_neg h2, dif_neg h3]
    rfl

/-- Into zero operands and from a zero initial value, the sum over axis 1 followed by the scatter of the rows is the
    scatter of the slabs followed by the sum over axis 1. At `(n, c)` the left side is the sum, over the rows
    `(e, c')` that land on `(n, c)`, of the sums over the fibre of `(e, c')` under the drop; the right side is the sum,
    over the entries `(n', k, c')` that drop to `(n, c)`, of the sums over the slab entries that land there. By the
    two regrouping laws these are the sums of `U` over `{a | the row of a lands on (n, c)}` and over
    `{a | a lands somewhere that drops to (n, c)}`, and the two sets are equal because landing commutes with the drop. -/
theorem scatter_reduce_exchange (U : (⟨3, ![E, K, C]⟩ : Shape).Idx → EReal) (z2 : (⟨2, ![N, C]⟩ : Shape).Idx → EReal)
    (z3 : (⟨3, ![N, K, C]⟩ : Shape).Idx → EReal) (c0 : EReal) (hz2 : ∀ i, z2 i = 0) (hz3 : ∀ m, z3 m = 0) (hc : c0 = 0) :
    Ideal.hostScatterAdd (rowScatter w2) z2 idx (Ideal.hostReduceAdd hk U c0)
      = Ideal.hostReduceAdd hr (Ideal.hostScatterAdd (slabScatter w3) z3 idx U) c0 := by
  funext i
  unfold Ideal.hostScatterAdd Ideal.hostReduceAdd
  simp only [hz2, hz3, hc, zero_add]
  rw [sum_fibers_then_landing, sum_landing_then_fibers]
  refine Finset.sum_congr ?_ fun _ _ => rfl
  ext a
  simp only [Finset.mem_filter, Finset.mem_univ, true_and]
  rw [landing_compat w2 w3 hk hr idx a]

/-- The same exchange said of the two host operations at the extended reals: a reduction's initial value is the
    one entry of a rank-zero array, here `0`. -/
theorem host_scatter_reduce_exchange {u u' : Shape} (U : FVec Ideal (⟨3, ![E, K, C]⟩ : Shape) .f32)
    (z2 : FVec Ideal (⟨2, ![N, C]⟩ : Shape) .f32) (z3 : FVec Ideal (⟨3, ![N, K, C]⟩ : Shape) .f32)
    (c : u.Idx → Ideal .f32) (c' : u'.Idx → Ideal .f32) (hu : 0 < u.numel) (hu' : 0 < u'.numel)
    (hz2 : ∀ i, z2 i = 0) (hz3 : ∀ m, z3 m = 0) (hc : c (Shape.Idx.first hu) = 0) (hc' : c' (Shape.Idx.first hu') = 0) :
    Host.scatterAdd (F := Ideal) (rowScatter w2) z2 idx (Host.reduceAdd (F := Ideal) U c hk hu)
      = Host.reduceAdd (F := Ideal) (Host.scatterAdd (F := Ideal) (slabScatter w3) z3 idx U) c' hr hu' := by
  show Ideal.hostScatterAdd (rowScatter w2) z2 idx (Ideal.hostReduceAdd hk U (c (Shape.Idx.first hu)))
    = Ideal.hostReduceAdd hr (Ideal.hostScatterAdd (slabScatter w3) z3 idx U) (c' (Shape.Idx.first hu'))
  rw [hc, hc']
  exact scatter_reduce_exchange w2 w3 hk hr idx U z2 z3 0 hz2 hz3 rfl

end Landing

/-! ## The two layers

The gathered rows, the broadcast weights and their product are the same array in both programs (the two programs'
shape names and index records denote the same shapes and the same dimension numbers), the two zero operands are the
broadcast of the constant `+0.0`, which is the extended real `0`, and so is the initial value of both reductions.
The bias is added to both sides alike. -/

variable [Cert.KernelIdeal.Facts₀] [Cert.ReferenceIdeal.Facts₀]

/-- Layer 0: the kernel's order is the reference's. -/
theorem layer64_eq (hp : (⟨Cert.KernelIdeal.S50000x192, .f32⟩ : BufTy).Contents (Elt Ideal))
    (w : (⟨Cert.KernelIdeal.S800000x3, .f32⟩ : BufTy).Contents (Elt Ideal))
    (src dst : (⟨Cert.KernelIdeal.S800000, .i32⟩ : BufTy).Contents (Elt Ideal))
    (b : (⟨Cert.KernelIdeal.S64, .f32⟩ : BufTy).Contents (Elt Ideal)) :
    kLayer64 (F := Ideal) hp w src dst b = rLayer64 (F := Ideal) hp w src dst b := by
  unfold kLayer64 rLayer64
  refine congrArg₂ addf ?_ rfl
  exact host_scatter_reduce_exchange (N := 50000) (E := 800000) (K := 3) (C := 64)
    Cert.KernelIdeal.Facts₀.scatter_S50000x64_S800000x1_S800000x64_1_0_0_1_wf
    Cert.ReferenceIdeal.Facts₀.scatter_S50000x3x64_S800000x1_S800000x3x64_12_0_0_1_wf
    Cert.KernelIdeal.Facts₀.reducesTo_S800000x3x64_S800000x64_d1
    Cert.ReferenceIdeal.Facts₀.reducesTo_S50000x3x64_S50000x64_d1 _ _ _ _ _ _ _ _
    (fun _ => Ideal.ofBits_zero_f32) (fun _ => Ideal.ofBits_zero_f32) Ideal.ofBits_zero_f32 Ideal.ofBits_zero_f32

/-- Layer 1: the kernel's order is the reference's. -/
theorem layer40_eq (hp : (⟨Cert.KernelIdeal.S50000x120, .f32⟩ : BufTy).Contents (Elt Ideal))
    (w : (⟨Cert.KernelIdeal.S800000x3, .f32⟩ : BufTy).Contents (Elt Ideal))
    (src dst : (⟨Cert.KernelIdeal.S800000, .i32⟩ : BufTy).Contents (Elt Ideal))
    (b : (⟨Cert.KernelIdeal.S40, .f32⟩ : BufTy).Contents (Elt Ideal)) :
    kLayer40 (F := Ideal) hp w src dst b = rLayer40 (F := Ideal) hp w src dst b := by
  unfold kLayer40 rLayer40
  refine congrArg₂ addf ?_ rfl
  exact host_scatter_reduce_exchange (N := 50000) (E := 800000) (K := 3) (C := 40)
    Cert.KernelIdeal.Facts₀.scatter_S50000x40_S800000x1_S800000x40_1_0_0_1_wf
    Cert.ReferenceIdeal.Facts₀.scatter_S50000x3x40_S800000x1_S800000x3x40_12_0_0_1_wf
    Cert.KernelIdeal.Facts₀.reducesTo_S800000x3x40_S800000x40_d1
    Cert.ReferenceIdeal.Facts₀.reducesTo_S50000x3x40_S50000x40_d1 _ _ _ _ _ _ _ _
    (fun _ => Ideal.ofBits_zero_f32) (fun _ => Ideal.ofBits_zero_f32) Ideal.ofBits_zero_f32 Ideal.ofBits_zero_f32

end Cert.Layer

end
-- ==== Proof.lean ====
/-
  The certificate of a two-layer Gaussian-mixture graph convolution (50000 nodes, 800000 edges, three mixture
  components) against its jnp reference, over the extended reals.

  The kernel program computes both layers' mixture weights in one elementwise pallas_call over the channel-major
  pseudo-coordinates, each layer's linear projection in a row-blocked matrix-product pallas_call, and gathers,
  weights, sums over the components and scatter-adds on the host; the reference does everything on the host and
  scatter-adds before it sums over the components. On the extended reals a narrowing of the float format is the
  identity, a matrix product into zero and a host contraction are the same finite sum, and the two orders of the
  component sum and the scatter-add are one finite sum regrouped, so the two results are equal, index by index, for
  ALL inputs: no finiteness of the inputs is used.

  * the three frames: the two kernel programs' are the generated frame certificates; the reference's is its generated
    run with the result dropped;
  * `preserves`: the idealization rewrote nothing;
  * `algebraic`: the kernel's run with its result read back through @main (`Value.kernel_result`), the reference's
    generated run restated over the same specification (`RefValue.ref_result`), and the exchange of the component
    sum with the scatter-add in each layer (`Layer.layer64_eq`, `Layer.layer40_eq`).
-/
import proofs.«147331_j1211180777632_1_alg».proof.Defs
import proofs.«147331_j1211180777632_1_alg».proof.Proof.Gen.Kernel
import proofs.«147331_j1211180777632_1_alg».proof.Proof.Gen.Kernel.Frame
import proofs.«147331_j1211180777632_1_alg».proof.Proof.Gen.KernelIdeal
import proofs.«147331_j1211180777632_1_alg».proof.Proof.Gen.KernelIdeal.Frame
import proofs.«147331_j1211180777632_1_alg».proof.Proof.Gen.ReferenceIdeal
import proofs.«147331_j1211180777632_1_alg».proof.Proof.Gen.ReferenceIdeal.Run
import proofs.«147331_j1211180777632_1_alg».proof.Proof.Gen.ReferenceIdeal.Read
import proofs.«147331_j1211180777632_1_alg».proof.Proof.Gen.Pre_finite_inputs
import proofs.«147331_j1211180777632_1_alg».proof.Proof.KernelRun
import proofs.«147331_j1211180777632_1_alg».proof.Proof.KernelValue
import proofs.«147331_j1211180777632_1_alg».proof.Proof.RefValue
import proofs.«147331_j1211180777632_1_alg».proof.Proof.SegmentSum
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result: the kernel's is two layers in its own order of summation over the shared
    projections and weights, the reference's the same two layers in the other order, of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v45),
    Cert.KernelIdeal.GenRun.run_main m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  show Cert.ReferenceIdeal.Value.res_main_v77 m' c
    = Cert.KernelIdeal.Gen.W7 m ρ c (Proc.devRef .tc Cert.KernelIdeal.main_v45)
  rw [Cert.ReferenceIdeal.Read.val_main_v77_eq, Cert.ReferenceIdeal.RefValue.ref_result,
    Cert.KernelIdeal.Value.kernel_result m ρ c, e0, e1, e2, e3, e4, e5, e6, e7, e8, e9, e10, e11, e12, e13, e14, e15,
    Cert.Layer.layer40_eq, Cert.Layer.layer64_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
